-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x12x2048x64 : Shape := ⟨4, ![2, 12, 2048, 64]⟩
abbrev S2x1x2048x2048 : Shape := ⟨4, ![2, 1, 2048, 2048]⟩
abbrev S_ : Shape := ⟨0, ![]⟩

class Facts : Prop where
  bcast_S_S2x12x2048x64 : S_.BroadcastsInDim S2x12x2048x64 (![] : Fin 0 → Fin S2x12x2048x64.rank)
  reducesTo_S2x12x2048x64_S_d0_1_2_3 : S2x12x2048x64.ReducesTo [0, 1, 2, 3] S_
  h_S_ : 0 < S_.numel

variable [Facts]

def fn {F : FTy → Type} [FloatOps F] (main_arg0 : FVec F S2x12x2048x64 .f32) (main_arg1 : FVec F S2x12x2048x64 .f32) (main_arg2 : FVec F S2x12x2048x64 .f32) (main_arg3 : IVec S2x1x2048x2048 32) : IVec S_ 1 :=
  let main_v0 : FVec F S2x12x2048x64 .f32 := Host.absf main_arg0
  let main_cst : FVec F S_ .f32 := constant S_ .f32 0x7F800000#32
  let main_v1 : FVec F S2x12x2048x64 .f32 := broadcastInDim S2x12x2048x64 ![] bcast_S_S2x12x2048x64 main_cst
  let main_v2 : IVec S2x12x2048x64 1 := cmpf .olt main_v0 main_v1
  let main_c : IVec S_ 1 := constantI S_ 1 1#1
  let main_v3 : IVec S_ 1 := (fun x v => Host.reduce IntOp.andi x v reducesTo_S2x12x2048x64_S_d0_1_2_3 h_S_) main_v2 main_c
  let main_v4 : FVec F S2x12x2048x64 .f32 := Host.absf main_arg1
  let main_cst_0 : FVec F S_ .f32 := constant S_ .f32 0x7F800000#32
  let main_v5 : FVec F S2x12x2048x64 .f32 := broadcastInDim S2x12x2048x64 ![] bcast_S_S2x12x2048x64 main_cst_0
  let main_v6 : IVec S2x12x2048x64 1 := cmpf .olt main_v4 main_v5
  let main_c_1 : IVec S_ 1 := constantI S_ 1 1#1
  let main_v7 : IVec S_ 1 := (fun x v => Host.reduce IntOp.andi x v reducesTo_S2x12x2048x64_S_d0_1_2_3 h_S_) main_v6 main_c_1
  let main_v8 : IVec S_ 1 := andi main_v3 main_v7
  let main_v9 : FVec F S2x12x2048x64 .f32 := Host.absf main_arg2
  let main_cst_2 : FVec F S_ .f32 := constant S_ .f32 0x7F800000#32
  let main_v10 : FVec F S2x12x2048x64 .f32 := broadcastInDim S2x12x2048x64 ![] bcast_S_S2x12x2048x64 main_cst_2
  let main_v11 : IVec S2x12x2048x64 1 := cmpf .olt main_v9 main_v10
  let main_c_3 : IVec S_ 1 := constantI S_ 1 1#1
  let main_v12 : IVec S_ 1 := (fun x v => Host.reduce IntOp.andi x v reducesTo_S2x12x2048x64_S_d0_1_2_3 h_S_) main_v11 main_c_3
  let main_v13 : IVec S_ 1 := andi main_v8 main_v12
  main_v13
-- ==== Kernel.lean ====
abbrev S2x12x2048x64 : Shape := ⟨4, ![2, 12, 2048, 64]⟩
abbrev S2x1x2048x2048 : Shape := ⟨4, ![2, 1, 2048, 2048]⟩
abbrev S2x12x2048x2048 : Shape := ⟨4, ![2, 12, 2048, 2048]⟩
abbrev S1x1x512x64 : Shape := ⟨4, ![1, 1, 512, 64]⟩
abbrev S1x12x2048x64 : Shape := ⟨4, ![1, 12, 2048, 64]⟩
abbrev S1x1x512x2048 : Shape := ⟨4, ![1, 1, 512, 2048]⟩
abbrev S512x64 : Shape := ⟨2, ![512, 64]⟩
abbrev S1x1x2048x64 : Shape := ⟨4, ![1, 1, 2048, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S2x12x2048x64, .f32⟩
  | .hbm, ⟨1, _⟩ => ⟨S2x12x2048x64, .f32⟩
  | .hbm, ⟨2, _⟩ => ⟨S2x12x2048x64, .f32⟩
  | .hbm, ⟨3, _⟩ => ⟨S2x1x2048x2048, .i32⟩
  | .hbm, ⟨4, _⟩ => ⟨S2x12x2048x64, .f32⟩
  | .hbm, ⟨5, _⟩ => ⟨S2x12x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x12x2048x64, .f32⟩
  | .local _ .vmem, ⟨3, _⟩ => ⟨S1x12x2048x64, .f32⟩
  | .local _ .vmem, ⟨4, _⟩ => ⟨S1x12x2048x64, .f32⟩
  | .local _ .vmem, ⟨5, _⟩ => ⟨S1x12x2048x64, .f32⟩
  | .local _ .vmem, ⟨6, _⟩ => ⟨S1x1x512x2048, .i32⟩
  | .local _ .vmem, ⟨7, _⟩ => ⟨S1x1x512x2048, .i32⟩
  | .local _ .vmem, ⟨8, _⟩ => ⟨S1x1x512x64, .f32⟩
  | .local _ .vmem, ⟨9, _⟩ => ⟨S1x1x512x64, .f32⟩
  | .local _ .vmem, ⟨10, _⟩ => ⟨S1x1x512x2048, .f32⟩
  | .local _ .vmem, ⟨11, _⟩ => ⟨S1x1x512x2048, .f32⟩
  | _, _ => ⟨S2x12x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 12], ![false, false, false]⟩

def k0_off1 (i : grid0.Coords) : Fin 4 → Nat :=
  let c0_3 : Index := 0#32
  let arg2 : BitVec 32 := BitVec.ofNat 32 (i 2).val
  let v2 : Index := Scalar.indexCast arg2
  let c0_4 : Index := 0#32
  let c0_5 : Index := 0#32
  ![0, v2.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x12x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x12x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  h_S1x1x2048x64 : 0 < S1x1x2048x64.numel
  shapeCasts_S1x1x2048x64_S2048x64 : S1x1x2048x64.ShapeCasts S2048x64
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x64_S1x1x512x64 : S512x64.ShapeCasts S1x1x512x64
  shapeCasts_S512x2048_S1x1x512x2048 : S512x2048.ShapeCasts S1x1x512x2048
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  k0_off1_inb : ∀ i : grid0.Coords, ∀ a, (k0_off1 i) a + S1x1x2048x64.size a ≤ S1x12x2048x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S2x12x2048x64.size a
  hwx0_0 : ∀ i : grid0.Coords, EltTy.bits .f32 = 32 ∨ (Rect.block (s := S2x12x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x12x2048x64.size a ≤ S2x12x2048x64.size a
  hwx0_1 : ∀ i : grid0.Coords, EltTy.bits .f32 = 32 ∨ (Rect.block (s := S2x12x2048x64) S1x12x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x12x2048x64.size a ≤ S2x12x2048x64.size a
  hwx0_2 : ∀ i : grid0.Coords, EltTy.bits .f32 = 32 ∨ (Rect.block (s := S2x12x2048x64) S1x12x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x2048.size a ≤ S2x1x2048x2048.size a
  hwx0_3 : ∀ i : grid0.Coords, EltTy.bits .i32 = 32 ∨ (Rect.block (s := S2x1x2048x2048) S1x1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S2x12x2048x64.size a
  hwx0_4 : ∀ i : grid0.Coords, EltTy.bits .f32 = 32 ∨ (Rect.block (s := S2x12x2048x64) S1x1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x2048.size a ≤ S2x12x2048x2048.size a
  hwx0_5 : ∀ i : grid0.Coords, EltTy.bits .f32 = 32 ∨ (Rect.block (s := S2x12x2048x2048) S1x1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x12x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x12x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x12x2048x64 : Shape := ⟨4, ![2, 12, 2048, 64]⟩
abbrev S2x1x2048x2048 : Shape := ⟨4, ![2, 1, 2048, 2048]⟩
abbrev S_ : Shape := ⟨0, ![]⟩
abbrev S2x12x2048x2048 : Shape := ⟨4, ![2, 12, 2048, 2048]⟩
abbrev S2x12x2048 : Shape := ⟨3, ![2, 12, 2048]⟩
abbrev S2x12x2048x1 : Shape := ⟨4, ![2, 12, 2048, 1]⟩

abbrev nBuf : Space → Nat
  | .hbm => 33
  | .vmem => 0
  | .smem => 0
  | _ => 0

abbrev bufTy : (tb : Table) → Fin (tcTables nBuf tb) → BufTy
  | .hbm, ⟨0, _⟩ => ⟨S2x12x2048x64, .f32⟩
  | .hbm, ⟨1, _⟩ => ⟨S2x12x2048x64, .f32⟩
  | .hbm, ⟨2, _⟩ => ⟨S2x12x2048x64, .f32⟩
  | .hbm, ⟨3, _⟩ => ⟨S2x1x2048x2048, .i32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2x12x2048x2048, .f32⟩
  | .hbm, ⟨9, _⟩ => ⟨S2x12x2048x2048, .f32⟩
  | .hbm, ⟨10, _⟩ => ⟨S2x12x2048x2048, .f32⟩
  | .hbm, ⟨11, _⟩ => ⟨S_, .i32⟩
  | .hbm, ⟨12, _⟩ => ⟨S2x1x2048x2048, .i32⟩
  | .hbm, ⟨13, _⟩ => ⟨S2x1x2048x2048, .i1⟩
  | .hbm, ⟨14, _⟩ => ⟨S_, .f32⟩
  | .hbm, ⟨15, _⟩ => ⟨S2x12x2048x2048, .i1⟩
  | .hbm, ⟨16, _⟩ => ⟨S2x12x2048x2048, .f32⟩
  | .hbm, ⟨17, _⟩ => ⟨S2x12x2048x2048, .f32⟩
  | .hbm, ⟨18, _⟩ => ⟨S_, .f32⟩
  | .hbm, ⟨19, _⟩ => ⟨S2x12x2048, .f32⟩
  | .hbm, ⟨20, _⟩ => ⟨S_, .f32⟩
  | .hbm, ⟨21, _⟩ => ⟨S2x12x2048, .f32⟩
  | .hbm, ⟨22, _⟩ => ⟨S2x12x2048, .f32⟩
  | .hbm, ⟨23, _⟩ => ⟨S2x12x2048x1, .f32⟩
  | .hbm, ⟨24, _⟩ => ⟨S2x12x2048x2048, .f32⟩
  | .hbm, ⟨25, _⟩ => ⟨S2x12x2048x2048, .f32⟩
  | .hbm, ⟨26, _⟩ => ⟨S2x12x2048x2048, .f32⟩
  | .hbm, ⟨27, _⟩ => ⟨S_, .f32⟩
  | .hbm, ⟨28, _⟩ => ⟨S2x12x2048, .f32⟩
  | .hbm, ⟨29, _⟩ => ⟨S2x12x2048x1, .f32⟩
  | .hbm, ⟨30, _⟩ => ⟨S2x12x2048x2048, .f32⟩
  | .hbm, ⟨31, _⟩ => ⟨S2x12x2048x2048, .f32⟩
  | .hbm, ⟨32, _⟩ => ⟨S2x12x2048x64, .f32⟩
  | _, _ => ⟨S2x12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]

class Facts₀ : Prop where
  bcast_S_S2x12x2048x2048 : S_.BroadcastsInDim S2x12x2048x2048 (![] : Fin 0 → Fin S2x12x2048x2048.rank)
  bcast_S_S2x1x2048x2048 : S_.BroadcastsInDim S2x1x2048x2048 (![] : Fin 0 → Fin S2x1x2048x2048.rank)
  bcast_S2x1x2048x2048_S2x12x2048x2048_0_1_2_3 : S2x1x2048x2048.BroadcastsInDim S2x12x2048x2048 (![0, 1, 2, 3] : Fin 4 → Fin S2x12x2048x2048.rank)
  reducesTo_S2x12x2048x2048_S2x12x2048_d3 : S2x12x2048x2048.ReducesTo [3] S2x12x2048
  h_S_ : 0 < S_.numel
  bcast_S_S2x12x2048 : S_.BroadcastsInDim S2x12x2048 (![] : Fin 0 → Fin S2x12x2048.rank)
  bcast_S2x12x2048_S2x12x2048x1_0_1_2 : S2x12x2048.BroadcastsInDim S2x12x2048x1 (![0, 1, 2] : Fin 3 → Fin S2x12x2048x1.rank)
  bcast_S2x12x2048x1_S2x12x2048x2048_0_1_2_3 : S2x12x2048x1.BroadcastsInDim S2x12x2048x2048 (![0, 1, 2, 3] : Fin 4 → Fin S2x12x2048x2048.rank)
  dot_S2x12x2048x64_S2x12x2048x64_S2x12x2048x2048_3_3_2_2_01_01_wf : DotDims.WF S2x12x2048x64 S2x12x2048x64 S2x12x2048x2048 [3] [3] [2] [2] [0, 1] [0, 1]
  dot_S2x12x2048x2048_S2x12x2048x64_S2x12x2048x64_3_2_2_3_01_01_wf : DotDims.WF S2x12x2048x2048 S2x12x2048x64 S2x12x2048x64 [3] [2] [2] [3] [0, 1] [0, 1]

variable [Facts₀]

def dot_S2x12x2048x64_S2x12x2048x64_S2x12x2048x2048_3_3_2_2_01_01 : DotDims S2x12x2048x64 S2x12x2048x64 S2x12x2048x2048 where
  lhsContracting := [3]
  rhsContracting := [3]
  lhsNonContracting := [2]
  rhsNonContracting := [2]
  lhsBatch := [0, 1]
  rhsBatch := [0, 1]
  wf := dot_S2x12x2048x64_S2x12x2048x64_S2x12x2048x2048_3_3_2_2_01_01_wf
def dot_S2x12x2048x2048_S2x12x2048x64_S2x12x2048x64_3_2_2_3_01_01 : DotDims S2x12x2048x2048 S2x12x2048x64 S2x12x2048x64 where
  lhsContracting := [3]
  rhsContracting := [2]
  lhsNonContracting := [2]
  rhsNonContracting := [3]
  lhsBatch := [0, 1]
  rhsBatch := [0, 1]
  wf := dot_S2x12x2048x2048_S2x12x2048x64_S2x12x2048x64_3_2_2_3_01_01_wf

class Facts : Prop extends Facts₀ where

variable [Facts]
-- ==== Proof.Spec.lean ====
/-
  Masked softmax attention, ONE QUERY ROW at a time, on the extended reals.

  A row is given by its query vector `qr : Fin 64 → EReal`, the key matrix `km : Fin 2048 → Fin 64 → EReal`,
  the value matrix `vm` of the same shape and the row's mask words `mr : Fin 2048 → BitVec 32`. The score of key
  `c` is `(∑ d, qr d * km c d) * s` for a scale `s`, replaced by the word for 1e-9 where the mask word is zero; the
  row is then normalised by a softmax (subtract a value `M`, exponentiate, divide by the sum), and the output is the
  weighted sum of the value rows.

  Two spellings of the same row are stated. The first multiplies each exponential by the reciprocal of the sum,
  scales by the word for 1/8 and subtracts the row's maximum. The second divides each exponential by the sum, scales
  by `1 / √64` and subtracts the larger of `-∞` and the row's maximum. They are equal when the query and the keys are
  real numbers (Proof/Law.lean): then every score is real, so is the maximum, the key attaining it contributes
  `exp 0 = 1` to the sum, and a quotient by a nonzero sum IS the product with its reciprocal.
-/
import Idealize.ShloMosaic.PureOps.Ideal
import Idealize.ShloMosaic.Lib.ValueIdx

noncomputable section

namespace Cert.Attention

open Idealize.ShloMosaic

/-- The f32 word both programs put where the mask word is zero (the float nearest 1e-9). -/
abbrev fill : EReal := Ideal.ofBits .f32 0x3089705F#32
/-- The f32 word of `-∞`, the value both maximum-reductions start from. -/
abbrev negInf : EReal := Ideal.ofBits .f32 0xFF800000#32
/-- The f32 word of 1. -/
abbrev one32 : EReal := Ideal.ofBits .f32 0x3F800000#32
/-- The f32 word of 1/8, the scale as the first spelling has it. -/
abbrev eighth : EReal := Ideal.ofBits .f32 0x3E000000#32
/-- The scale as the second spelling has it: one over the square root of the f32 word of 64. -/
abbrev invSqrt64 : EReal := Ideal.div one32 (Ideal.sqrt (Ideal.ofBits .f32 0x42800000#32))

variable (qr : Fin 64 → EReal) (km vm : Fin 2048 → Fin 64 → EReal) (mr : Fin 2048 → BitVec 32)

/-- The masked, scaled score of key `c`. -/
def score (s : EReal) (c : Fin 2048) : EReal :=
  Scalar.select (IntOp.cmpi .eq (mr c) 0#32) fill ((∑ d : Fin 64, qr d * km c d) * s)

/-- The row's largest score, as a fold of `max` from `-∞`. -/
def rowMax (s : EReal) : EReal := Finset.univ.fold max negInf (score qr km mr s)

/-- The exponential of a score shifted by `M`. -/
def expo (s M : EReal) (c : Fin 2048) : EReal := Ideal.exp (score qr km mr s c - M)

/-- The sum of the row's shifted exponentials. -/
def denom (s M : EReal) : EReal := ∑ c : Fin 2048, expo qr km mr s M c

/-- First spelling: the exponential times the reciprocal of the sum; scale 1/8, shift the row's maximum. -/
def attnMul (c : Fin 2048) : EReal :=
  expo qr km mr eighth (rowMax qr km mr eighth) c * Ideal.div one32 (denom qr km mr eighth (rowMax qr km mr eighth))

/-- Second spelling: the exponential divided by the sum; scale `1 / √64`, shift `max (-∞) (row's maximum)`. -/
def attnDiv (c : Fin 2048) : EReal :=
  Ideal.div (expo qr km mr invSqrt64 (max negInf (rowMax qr km mr invSqrt64)) c)
    (denom qr km mr invSqrt64 (max negInf (rowMax qr km mr invSqrt64)))

/-- The row's output at feature `d`, first spelling. -/
def outMul (d : Fin 64) : EReal := ∑ c : Fin 2048, attnMul qr km mr c * vm c d

/-- The row's output at feature `d`, second spelling. -/
def outDiv (d : Fin 64) : EReal := ∑ c : Fin 2048, attnDiv qr km mr c * vm c d

end Cert.Attention

end
-- ==== Proof.Law.lean ====
/- The two spellings of one attention row agree when the query and the keys are real numbers. -/
import proofs.«424045_j71519795413418_3_alg».proof.Proof.Spec

noncomputable section

namespace Cert.Attention

open Idealize.ShloMosaic Idealize.ShloMosaic.ValueIdx

variable (qr : Fin 64 → EReal) (km vm : Fin 2048 → Fin 64 → EReal) (mr : Fin 2048 → BitVec 32)

namespace Law

/-! ### The words, each read once as the extended real it denotes -/

/-- The word `0x3F800000` denotes `1`. -/
theorem one32_eq : one32 = 1 := by
  simp [Ideal.ofBits, Ideal.ieee, -EReal.coe_mul]; norm_num

/-- The word `0xFF800000` denotes `-∞`, the bottom of the order. -/
theorem negInf_eq : negInf = ⊥ := by
  simp [Ideal.ofBits, Ideal.ieee]

/-- The word `0x3E000000` denotes the real `1/8`. -/
theorem eighth_eq : eighth = (((1:ℝ)/8 : ℝ) : EReal) := by
  simp [Ideal.ofBits, Ideal.ieee, -EReal.coe_mul]; norm_num

/-- The word `0x42800000` denotes the real `64`. -/
theorem w64_eq : Ideal.ofBits .f32 0x42800000#32 = ((64 : ℝ) : EReal) := by
  simp [Ideal.ofBits, Ideal.ieee, -EReal.coe_mul]; norm_num

/-- The word `0x3089705F` is a normal number, so it denotes a real. -/
theorem fill_real : ∃ r : ℝ, fill = (r : EReal) := by
  simp [Ideal.ofBits, Ideal.ieee, -EReal.coe_mul]

/-! ### The two scales are one: `1 / √64 = 1/8` -/

theorem sqrt64 : Real.sqrt 64 = 8 := by
  rw [show (64 : ℝ) = 8 ^ 2 by norm_num]
  exact Real.sqrt_sq (by norm_num)

theorem invSqrt64_eq : invSqrt64 = eighth := by
  show Ideal.div one32 (Ideal.sqrt (Ideal.ofBits .f32 0x42800000#32)) = eighth
  rw [w64_eq, Ideal.sqrt_coe, if_neg (by norm_num), sqrt64, Ideal.div_coe (by norm_num), one32_eq, one_mul, eighth_eq]

/-! ### Real numbers inside the extended reals -/

/-- The inclusion of the reals commutes with a finite sum. -/
theorem coe_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- With real query, keys and scale, every score is a real number: it is either the fill value or a finite sum of
    products of reals times the scale. -/
theorem score_real (hq : ∀ d, ∃ r : ℝ, qr d = (r : EReal)) (hk : ∀ c d, ∃ r : ℝ, km c d = (r : EReal))
    (σ : ℝ) (c : Fin 2048) : ∃ r : ℝ, score qr km mr (σ : EReal) c = (r : EReal) := by
  choose fq hfq using hq
  choose fk hfk using hk
  unfold score Scalar.select
  split_ifs
  · exact fill_real
  · refine ⟨(∑ d : Fin 64, fq d * fk c d) * σ, ?_⟩
    rw [EReal.coe_mul, coe_sum]
    congr 1
    exact Finset.sum_congr rfl fun d _ => by rw [hfq d, hfk c d, EReal.coe_mul]

/-- A fold of `max` from `⊥` over a finite family is `⊥` or one of the family's values. -/
theorem fold_max_bot_or_mem {ι : Type} (t : Finset ι) (f : ι → EReal) :
    t.fold max ⊥ f = ⊥ ∨ ∃ i ∈ t, t.fold max ⊥ f = f i := by
  classical
  induction t using Finset.induction_on with
  | empty => left; exact Finset.fold_empty
  | insert a t ha ih =>
    right
    rw [Finset.fold_insert ha]
    rcases le_total (t.fold max ⊥ f) (f a) with h | h
    · exact ⟨a, Finset.mem_insert_self a t, max_eq_left h⟩
    · rcases ih with h0 | ⟨i, hi, hfi⟩
      · refine ⟨a, Finset.mem_insert_self a t, ?_⟩
        rw [h0]; exact max_eq_left bot_le
      · exact ⟨i, Finset.mem_insert_of_mem hi, by rw [max_eq_right h, hfi]⟩

/-- The row maximum of real scores is one of them: it cannot be `⊥`, being at least the (real) first score. -/
theorem rowMax_attained (s : EReal) (hs : ∀ c, ∃ r : ℝ, score qr km mr s c = (r : EReal)) :
    ∃ c, rowMax qr km mr s = score qr km mr s c := by
  unfold rowMax
  rw [negInf_eq]
  rcases fold_max_bot_or_mem Finset.univ (score qr km mr s) with h | ⟨c, _, hc⟩
  · exfalso
    obtain ⟨r, hr⟩ := hs 0
    have : score qr km mr s 0 ≤ Finset.univ.fold max ⊥ (score qr km mr s) :=
      (Finset.le_fold_max _).2 (Or.inr ⟨0, Finset.mem_univ 0, le_rfl⟩)
    rw [h, hr] at this
    exact absurd (le_bot_iff.1 this) (EReal.coe_ne_bot r)
  · exact ⟨c, hc⟩

/-- The sum of the shifted exponentials is not zero: every term is the exponential of a real, hence nonnegative,
    and the key attaining the maximum contributes `exp 0 = 1`, so the sum is at least `1`. -/
theorem denom_ne_zero (s : EReal) (hs : ∀ c, ∃ r : ℝ, score qr km mr s c = (r : EReal)) :
    denom qr km mr s (rowMax qr km mr s) ≠ 0 := by
  obtain ⟨cm, hcm⟩ := rowMax_attained qr km mr s hs
  obtain ⟨m, hm⟩ := hs cm
  have hnn : ∀ c ∈ (Finset.univ : Finset (Fin 2048)), 0 ≤ expo qr km mr s (rowMax qr km mr s) c := by
    intro c _
    obtain ⟨r, hr⟩ := hs c
    unfold expo
    rw [hcm, hm, hr, ← EReal.coe_sub, Ideal.exp_coe]
    exact EReal.coe_nonneg.2 (Real.exp_pos _).le
  have hone : expo qr km mr s (rowMax qr km mr s) cm = 1 := by
    unfold expo
    rw [hcm, hm, ← EReal.coe_sub, Ideal.exp_coe, sub_self, Real.exp_zero, EReal.coe_one]
  have hle : (1 : EReal) ≤ denom qr km mr s (rowMax qr km mr s) := by
    unfold denom
    rw [← hone]
    exact Finset.single_le_sum hnn (Finset.mem_univ cm)
  intro h0
  rw [h0] at hle
  exact absurd hle (by norm_num)

/-- For ONE scale with real scores the two spellings agree: `max (-∞) M = M`, and off a zero divisor the quotient
    `x / y` is `x * y⁻¹`, so `e * (1 / y) = e * (1 * y⁻¹) = e * y⁻¹ = e / y`. -/
theorem law_core (s : EReal) (hs : ∀ c, ∃ r : ℝ, score qr km mr s c = (r : EReal)) (c : Fin 2048) :
    expo qr km mr s (rowMax qr km mr s) c * Ideal.div one32 (denom qr km mr s (rowMax qr km mr s))
      = Ideal.div (expo qr km mr s (max negInf (rowMax qr km mr s)) c)
          (denom qr km mr s (max negInf (rowMax qr km mr s))) := by
  have hmax : max negInf (rowMax qr km mr s) = rowMax qr km mr s := by
    rw [negInf_eq]; exact max_eq_right bot_le
  have hd := denom_ne_zero qr km mr s hs
  rw [hmax, Ideal.div, if_neg hd, Ideal.div, if_neg hd, one32_eq, one_mul]

end Law

theorem attnMul_eq_attnDiv (hq : ∀ d, ∃ r : ℝ, qr d = (r : EReal)) (hk : ∀ c d, ∃ r : ℝ, km c d = (r : EReal)) (c : Fin 2048) :
    attnMul qr km mr c = attnDiv qr km mr c := by
  unfold attnMul attnDiv
  rw [Law.invSqrt64_eq]
  refine Law.law_core qr km mr eighth (fun c => ?_) c
  rw [Law.eighth_eq]
  exact Law.score_real qr km mr hq hk _ c

theorem outMul_eq_outDiv (hq : ∀ d, ∃ r : ℝ, qr d = (r : EReal)) (hk : ∀ c d, ∃ r : ℝ, km c d = (r : EReal)) (d : Fin 64) :
    outMul qr km vm mr d = outDiv qr km vm mr d := by
  unfold outMul outDiv
  exact Finset.sum_congr rfl fun c _ => by rw [attnMul_eq_attnDiv qr km mr hq hk c]

end Cert.Attention

end
-- ==== Proof.Finite.lean ====
/- From the precondition (every float input has absolute value below +∞) to: every entry of the first two arrays is a real number. -/
import proofs.«424045_j71519795413418_3_alg».proof.Pre_finite_inputs
import Idealize.ShloMosaic.PureOps.Ideal
import Idealize.ShloMosaic.Lib.ValueIdx
import Idealize.ShloMosaic.Lib.ReduceAll

noncomputable section

namespace Cert.Attention

open Idealize.ShloMosaic Idealize.ShloMosaic.ValueIdx

variable [Cert.Pre_finite_inputs.Facts]

namespace Finite

/-- The word `0x7F800000` denotes `+∞`, the top of the order. -/
theorem posInf_eq : Ideal.ofBits .f32 0x7F800000#32 = ⊤ := by
  simp [Ideal.ofBits, Ideal.ieee]

/-- A one-bit word made from a Boolean is `1` exactly when the Boolean is true. -/
theorem ofBool_eq_one (b : Bool) : BitVec.ofBool b = 1#1 ↔ b = true := by cases b <;> decide

/-- The ordered comparison "less than" answering `1` says the order's `<`. -/
theorem lt_of_cmp_olt (x y : EReal) (h : Ideal.cmp .olt x y = 1#1) : x < y := by
  have hb : decide (x < y) = true := (ofBool_eq_one _).1 h
  exact of_decide_eq_true hb

/-- An extended real whose absolute value `max x (-x)` is below `+∞` is a real number: `|⊤| = |⊥| = ⊤`. -/
theorem real_of_abs_lt (x : EReal)
    (h : Ideal.cmp .olt (max x (-x)) (Ideal.ofBits .f32 0x7F800000#32) = 1#1) : ∃ r : ℝ, x = (r : EReal) := by
  rw [posInf_eq] at h
  have hlt : max x (-x) < ⊤ := lt_of_cmp_olt _ _ h
  induction x using EReal.rec with
  | bot => simp at hlt
  | top => simp at hlt
  | coe r => exact ⟨r, rfl⟩

/-- The scalar shape has one index. -/
theorem subsingleton_scalar : Subsingleton Cert.Pre_finite_inputs.S_.Idx :=
  ⟨fun a b => funext fun d => d.elim0⟩

end Finite

theorem real_of_pre (x0 x1 x2 : FVec Ideal Cert.Pre_finite_inputs.S2x12x2048x64 .f32) (x3 : IVec Cert.Pre_finite_inputs.S2x1x2048x2048 32)
    (h : Cert.Pre_finite_inputs.fn (F := Ideal) x0 x1 x2 x3 = fun _ => 1#1) :
    (∀ i, ∃ r : ℝ, x0 i = (r : EReal)) ∧ (∀ i, ∃ r : ℝ, x1 i = (r : EReal)) := by
  haveI := Finite.subsingleton_scalar
  have h0 := congrFun h ValueIdx.ix0
  dsimp only [Cert.Pre_finite_inputs.fn] at h0
  obtain ⟨h01, _⟩ := IntOp.andi_eq_one.1 h0
  obtain ⟨hx0, hx1⟩ := IntOp.andi_eq_one.1 h01
  exact ⟨fun i => Finite.real_of_abs_lt (x0 i) (Host.reduce_andi_all _ _ _ _ _ hx0 i),
    fun i => Finite.real_of_abs_lt (x1 i) (Host.reduce_andi_all _ _ _ _ _ hx1 i)⟩

end Cert.Attention

end
-- ==== Proof.RefRow.lean ====
/- The reference's two results, read at an index, are the second spelling of that index's attention row. -/
import proofs.«424045_j71519795413418_3_alg».proof.Proof.Spec
import proofs.«424045_j71519795413418_3_alg».proof.Proof.Gen.ReferenceIdeal.Read

noncomputable section

namespace Cert.Attention

open Idealize.ShloMosaic Idealize.ShloMosaic.ValueIdx Cert.ReferenceIdeal Cert.ReferenceIdeal.Read

variable [Cert.ReferenceIdeal.Facts]

/-- The left operand index of the score contraction at output `(b, h, r, c)`, contraction coordinate `k`. -/
theorem lidx_v2_ix (b : Fin 2) (h : Fin 12) (r c : Fin 2048) (k : Fin 64) :
    lidx_main_v2 (ix4 b h r c) k = ix4 b h r k :=
  funext fun a => Fin.ext (by match a with | ⟨0, _⟩ => rfl | ⟨1, _⟩ => rfl | ⟨2, _⟩ => rfl | ⟨3, _⟩ => rfl)

/-- The right operand index of the score contraction. -/
theorem ridx_v2_ix (b : Fin 2) (h : Fin 12) (r c : Fin 2048) (k : Fin 64) :
    ridx_main_v2 (ix4 b h r c) k = ix4 b h c k :=
  funext fun a => Fin.ext (by match a with | ⟨0, _⟩ => rfl | ⟨1, _⟩ => rfl | ⟨2, _⟩ => rfl | ⟨3, _⟩ => rfl)

/-- The mask is broadcast along the head axis: it is read at head `0`. -/
theorem idx_call0_v0_ix (b : Fin 2) (h : Fin 12) (r c : Fin 2048) :
    idx_main_call0_v0 (ix4 b h r c) = ix4 b 0 r c :=
  funext fun a => Fin.ext (by match a with | ⟨0, _⟩ => rfl | ⟨1, _⟩ => rfl | ⟨2, _⟩ => rfl | ⟨3, _⟩ => rfl)

theorem ref_v7 (x0 x1 : (⟨S2x12x2048x64, .f32⟩ : BufTy).Contents (Elt Ideal)) (x3 : (⟨S2x1x2048x2048, .i32⟩ : BufTy).Contents (Elt Ideal))
    (b : Fin 2) (h : Fin 12) (r c : Fin 2048) :
    val_main_v7 x0 x1 x3 (ix4 b h r c)
      = score (fun d => x0 (ix4 b h r d)) (fun c' d => x1 (ix4 b h c' d)) (fun c' => x3 (ix4 b 0 r c')) invSqrt64 c := by
  rw [val_main_v7_apply, val_main_call0_v0_apply, val_main_v6_apply, val_main_v5_apply, val_main_c_apply,
    val_main_call0_v1_apply, val_main_cst_1_apply, val_main_v4_apply, val_main_v2_apply, val_main_v3_apply,
    val_main_v1_apply, val_main_cst_0_apply, val_main_v0_apply, val_main_cst_apply]
  simp only [lidx_v2_ix, ridx_v2_ix, idx_call0_v0_ix, Ideal.hostDivf_def, Ideal.hostUnary_sqrt_def, Ideal.mulf_def,
    Ideal.ofBits_def]
  rfl

/-- Reducing the key axis of a `2 × 12 × 2048 × 2048` array leaves a `2 × 12 × 2048` one. -/
theorem reduces_row : S2x12x2048x2048.Reduces [3] S2x12x2048 := by decide

/-- The source index over `(b, h, r)` with key coordinate `k` inserted on the reduced axis. -/
theorem lift_row_ix (b : Fin 2) (h : Fin 12) (r : Fin 2048) (k : Fin 2048) :
    reduces_row.lift (ix3 b h r) k = ix4 b h r k :=
  funext fun a => Fin.ext (by match a with | ⟨0, _⟩ => rfl | ⟨1, _⟩ => rfl | ⟨2, _⟩ => rfl | ⟨3, _⟩ => rfl)

/-- The reference's row maximum is the fold of `max` from `-∞` over the row's scores. -/
theorem ref_v8 (x0 x1 : (⟨S2x12x2048x64, .f32⟩ : BufTy).Contents (Elt Ideal)) (x3 : (⟨S2x1x2048x2048, .i32⟩ : BufTy).Contents (Elt Ideal))
    (b : Fin 2) (h : Fin 12) (r : Fin 2048) :
    val_main_v8 x0 x1 x3 (ix3 b h r)
      = rowMax (fun d => x0 (ix4 b h r d)) (fun c' d => x1 (ix4 b h c' d)) (fun c' => x3 (ix4 b 0 r c')) invSqrt64 := by
  unfold val_main_v8
  rw [Host.reduce_eq_fold_single FloatOps.maximumf _ _ Gen.reducesTo_S2x12x2048x2048_S2x12x2048_d3 reduces_row Gen.h_S_ (ix3 b h r)]
  show Finset.fold max negInf (fun k : Fin 2048 => val_main_v7 x0 x1 x3 (reduces_row.lift (ix3 b h r) k)) Finset.univ = _
  unfold rowMax
  refine Finset.fold_congr (fun k _ => ?_)
  show val_main_v7 x0 x1 x3 (reduces_row.lift (ix3 b h r) k) = _
  rw [lift_row_ix, ref_v7]

/-- The larger of `-∞` and the row maximum, as the reference spells the shift. -/
theorem ref_v10 (x0 x1 : (⟨S2x12x2048x64, .f32⟩ : BufTy).Contents (Elt Ideal)) (x3 : (⟨S2x1x2048x2048, .i32⟩ : BufTy).Contents (Elt Ideal))
    (b : Fin 2) (h : Fin 12) (r : Fin 2048) :
    val_main_v10 x0 x1 x3 (ix3 b h r)
      = max negInf (rowMax (fun d => x0 (ix4 b h r d)) (fun c' d => x1 (ix4 b h c' d)) (fun c' => x3 (ix4 b 0 r c')) invSqrt64) := by
  rw [val_main_v10_apply, val_main_v9_apply, val_main_cst_3_apply, ref_v8]
  rfl

/-- Both per-row broadcasts (of the shift and of the sum) read the row's entry: the key coordinate is forgotten. -/
theorem idx_v11_v12_ix (b : Fin 2) (h : Fin 12) (r c : Fin 2048) :
    idx_main_v11 (idx_main_v12 (ix4 b h r c)) = ix3 b h r :=
  funext fun a => Fin.ext (by match a with | ⟨0, _⟩ => rfl | ⟨1, _⟩ => rfl | ⟨2, _⟩ => rfl)

theorem idx_v16_v17_ix (b : Fin 2) (h : Fin 12) (r c : Fin 2048) :
    idx_main_v16 (idx_main_v17 (ix4 b h r c)) = ix3 b h r :=
  funext fun a => Fin.ext (by match a with | ⟨0, _⟩ => rfl | ⟨1, _⟩ => rfl | ⟨2, _⟩ => rfl)

/-- The row sum runs over the key coordinate. -/
theorem idx_v15_ix (b : Fin 2) (h : Fin 12) (r : Fin 2048) (k : Fin 2048) :
    idx_main_v15 (ix3 b h r) k = ix4 b h r k :=
  funext fun a => Fin.ext (by match a with | ⟨0, _⟩ => rfl | ⟨1, _⟩ => rfl | ⟨2, _⟩ => rfl | ⟨3, _⟩ => rfl)

/-- The reference's exponentials are the shifted exponentials of the second spelling. -/
theorem ref_v14 (x0 x1 : (⟨S2x12x2048x64, .f32⟩ : BufTy).Contents (Elt Ideal)) (x3 : (⟨S2x1x2048x2048, .i32⟩ : BufTy).Contents (Elt Ideal))
    (b : Fin 2) (h : Fin 12) (r c : Fin 2048) :
    val_main_v14 x0 x1 x3 (ix4 b h r c)
      = expo (fun d => x0 (ix4 b h r d)) (fun c' d => x1 (ix4 b h c' d)) (fun c' => x3 (ix4 b 0 r c')) invSqrt64
          (max negInf (rowMax (fun d => x0 (ix4 b h r d)) (fun c' d => x1 (ix4 b h c' d)) (fun c' => x3 (ix4 b 0 r c')) invSqrt64)) c := by
  rw [val_main_v14_apply, val_main_v13_apply, val_main_v12_apply, val_main_v11_apply, idx_v11_v12_ix, ref_v10, ref_v7]
  rfl

/-- The reference's row sum is the sum of those exponentials. -/
theorem ref_v15 (x0 x1 : (⟨S2x12x2048x64, .f32⟩ : BufTy).Contents (Elt Ideal)) (x3 : (⟨S2x1x2048x2048, .i32⟩ : BufTy).Contents (Elt Ideal))
    (b : Fin 2) (h : Fin 12) (r : Fin 2048) :
    val_main_v15 x0 x1 x3 (ix3 b h r)
      = denom (fun d => x0 (ix4 b h r d)) (fun c' d => x1 (ix4 b h c' d)) (fun c' => x3 (ix4 b 0 r c')) invSqrt64
          (max negInf (rowMax (fun d => x0 (ix4 b h r d)) (fun c' d => x1 (ix4 b h c' d)) (fun c' => x3 (ix4 b 0 r c')) invSqrt64)) := by
  rw [val_main_v15_apply, val_main_cst_4_apply, Ideal.ofBits_def, Ideal.ofBits_zero_f32, zero_add]
  unfold denom
  refine Finset.sum_congr rfl (fun k _ => ?_)
  rw [idx_v15_ix, ref_v14]

theorem ref_attn (x0 x1 : (⟨S2x12x2048x64, .f32⟩ : BufTy).Contents (Elt Ideal)) (x3 : (⟨S2x1x2048x2048, .i32⟩ : BufTy).Contents (Elt Ideal))
    (b : Fin 2) (h : Fin 12) (r c : Fin 2048) :
    val_main_v18 x0 x1 x3 (ix4 b h r c)
      = attnDiv (fun d => x0 (ix4 b h r d)) (fun c' d => x1 (ix4 b h c' d)) (fun c' => x3 (ix4 b 0 r c')) c := by
  rw [val_main_v18_apply, val_main_v17_apply, val_main_v16_apply, idx_v16_v17_ix, ref_v15, ref_v14]
  rfl

/-- The left operand index of the output contraction at `(b, h, r, d)`, key coordinate `k`. -/
theorem lidx_v19_ix (b : Fin 2) (h : Fin 12) (r : Fin 2048) (d : Fin 64) (k : Fin 2048) :
    lidx_main_v19 (ix4 b h r d) k = ix4 b h r k :=
  funext fun a => Fin.ext (by match a with | ⟨0, _⟩ => rfl | ⟨1, _⟩ => rfl | ⟨2, _⟩ => rfl | ⟨3, _⟩ => rfl)

/-- The right operand index of the output contraction. -/
theorem ridx_v19_ix (b : Fin 2) (h : Fin 12) (r : Fin 2048) (d : Fin 64) (k : Fin 2048) :
    ridx_main_v19 (ix4 b h r d) k = ix4 b h k d :=
  funext fun a => Fin.ext (by match a with | ⟨0, _⟩ => rfl | ⟨1, _⟩ => rfl | ⟨2, _⟩ => rfl | ⟨3, _⟩ => rfl)

theorem ref_out (x0 x1 x2 : (⟨S2x12x2048x64, .f32⟩ : BufTy).Contents (Elt Ideal)) (x3 : (⟨S2x1x2048x2048, .i32⟩ : BufTy).Contents (Elt Ideal))
    (b : Fin 2) (h : Fin 12) (r : Fin 2048) (d : Fin 64) :
    val_main_v19 x0 x1 x2 x3 (ix4 b h r d)
      = outDiv (fun d => x0 (ix4 b h r d)) (fun c' d => x1 (ix4 b h c' d)) (fun c' d => x2 (ix4 b h c' d)) (fun c' => x3 (ix4 b 0 r c')) d := by
  rw [val_main_v19_apply]
  unfold outDiv
  refine Finset.sum_congr rfl (fun k _ => ?_)
  rw [lidx_v19_ix, ridx_v19_ix, ref_attn]

end Cert.Attention

end
-- ==== Proof.TileRow.lean ====
/- The kernel body's two stored values, read at an index of the tile, are the first spelling of that row of the tile. -/
import proofs.«424045_j71519795413418_3_alg».proof.Proof.Spec
import proofs.«424045_j71519795413418_3_alg».proof.Proof.Gen.KernelIdeal.Skeleton
import Idealize.ShloMosaic.Lib.Pipeline.Value
import Idealize.ShloMosaic.PureOps.Ideal.Laws

noncomputable section

namespace Cert.Attention

open Idealize.ShloMosaic Idealize.ShloMosaic.ValueIdx Cert.KernelIdeal Cert.KernelIdeal.Gen

variable [Cert.KernelIdeal.Facts]

namespace Tile

/-! ## The layout operations of the body, read at coordinates -/

section Layout
variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two lane reductions, read at a row -/

/-- The row maximum: the fold of `max` from the word of `-∞` over the row's lanes. -/
theorem rowMax_apply (v : FVec Ideal S512x2048 .f32) (p : Fin 512) :
    multiReduction (F := Ideal) .maximumf [1] S512 v 0xFF800000#32 reduces_S512x2048_S512 (.inl rfl) rfl (ix1 p)
      = Finset.univ.fold max negInf (fun c : Fin 2048 => v (ix2 p c)) := by
  refine (Ideal.multiReduction_maximumf_single v _ reduces_S512x2048_S512 _ _ (ix1 p)).trans ?_
  show Finset.univ.fold max negInf (fun c : Fin 2048 => v (reduces_S512x2048_S512.lift (ix1 p) c)) = _
  refine congrArg (Finset.univ.fold max negInf) (funext fun c => congrArg v (funext fun a => ?_))
  match a with
  | ⟨0, _⟩ => rfl
  | ⟨1, _⟩ => rfl

/-- The row sum: the sum over the row's lanes. -/
theorem rowSum_apply (v : FVec Ideal S512x2048 .f32) (p : Fin 512) :
    multiReduction (F := Ideal) .add [1] S512 v 0x00000000#32 reduces_S512x2048_S512 (.inl rfl) rfl (ix1 p)
      = ∑ c : Fin 2048, v (ix2 p c) := by
  refine (Ideal.multiReduction_add_single v _ reduces_S512x2048_S512 _ _ (ix1 p)).trans ?_
  show ∑ c : Fin 2048, v (reduces_S512x2048_S512.lift (ix1 p) c) = _
  refine Finset.sum_congr rfl fun c _ => congrArg v (funext fun a => ?_)
  match a with
  | ⟨0, _⟩ => rfl
  | ⟨1, _⟩ => rfl

/-! ## The two matrix products, read at an index -/

theorem lhs_qk_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem lhs_qk_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem rhs_qk_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem rhs_qk_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- The product of the queries with the transposed keys, into the zero accumulator: at `(p, c)` the sum over the 64
    features of query `p` times key `c`. -/
theorem matmul_qk_apply (q : FVec Ideal S512x64 .f32) (k : FVec Ideal S2048x64 .f32) (p : Fin 512) (c : Fin 2048) :
    matmul dot_S512x64_S2048x64_S512x2048_1_1_0_0_n_n none q k (constant (F := Ideal) S512x2048 .f32 0x00000000#32) (ix2 p c)
      = ∑ d : Fin 64, q (ix2 p d) * k (ix2 c d) := by
  refine (Ideal.matmul_constant_zero_apply dot_S512x64_S2048x64_S512x2048_1_1_0_0_n_n none q k (ix2 p c)).trans ?_
  rw [← Equiv.sum_comp (contrEquiv1 dot_S512x64_S2048x64_S512x2048_1_1_0_0_n_n 64 rfl rfl).symm]
  refine Finset.sum_congr rfl fun d _ => ?_
  have hk := contrEquiv1_symm_val dot_S512x64_S2048x64_S512x2048_1_1_0_0_n_n 64 rfl rfl d
  have el : dot_S512x64_S2048x64_S512x2048_1_1_0_0_n_n.lhsIdx (ix2 p c) ((contrEquiv1 dot_S512x64_S2048x64_S512x2048_1_1_0_0_n_n 64 rfl rfl).symm d) = ix2 p d := funext fun a => Fin.ext (by
    match a with
    | ⟨0, _⟩ => exact lhs_qk_0 _ _
    | ⟨1, _⟩ => exact (lhs_qk_1 _ _).trans hk)
  have er : dot_S512x64_S2048x64_S512x2048_1_1_0_0_n_n.rhsIdx (ix2 p c) ((contrEquiv1 dot_S512x64_S2048x64_S512x2048_1_1_0_0_n_n 64 rfl rfl).symm d) = ix2 c d := funext fun a => Fin.ext (by
    match a with
    | ⟨0, _⟩ => exact rhs_qk_0 _ _
    | ⟨1, _⟩ => exact (rhs_qk_1 _ _).trans hk)
  rw [el, er]

theorem lhs_av_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem lhs_av_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem rhs_av_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem rhs_av_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The product of the attention weights with the values, into the zero accumulator: at `(p, d)` the sum over the 2048
    keys of weight `(p, c)` times value `(c, d)`. -/
theorem matmul_av_apply (a : FVec Ideal S512x2048 .f32) (v : FVec Ideal S2048x64 .f32) (p : Fin 512) (d : Fin 64) :
    matmul dot_S512x2048_S2048x64_S512x64_1_0_0_1_n_n none a v (constant (F := Ideal) S512x64 .f32 0x00000000#32) (ix2 p d)
      = ∑ c : Fin 2048, a (ix2 p c) * v (ix2 c d) := by
  refine (Ideal.matmul_constant_zero_apply dot_S512x2048_S2048x64_S512x64_1_0_0_1_n_n none a v (ix2 p d)).trans ?_
  rw [← Equiv.sum_comp (contrEquiv1 dot_S512x2048_S2048x64_S512x64_1_0_0_1_n_n 2048 rfl rfl).symm]
  refine Finset.sum_congr rfl fun c _ => ?_
  have hk := contrEquiv1_symm_val dot_S512x2048_S2048x64_S512x64_1_0_0_1_n_n 2048 rfl rfl c
  have el : dot_S512x2048_S2048x64_S512x64_1_0_0_1_n_n.lhsIdx (ix2 p d) ((contrEquiv1 dot_S512x2048_S2048x64_S512x64_1_0_0_1_n_n 2048 rfl rfl).symm c) = ix2 p c := funext fun a => Fin.ext (by
    match a with
    | ⟨0, _⟩ => exact lhs_av_0 _ _
    | ⟨1, _⟩ => exact (lhs_av_1 _ _).trans hk)
  have er : dot_S512x2048_S2048x64_S512x64_1_0_0_1_n_n.rhsIdx (ix2 p d) ((contrEquiv1 dot_S512x2048_S2048x64_S512x64_1_0_0_1_n_n 2048 rfl rfl).symm c) = ix2 c d := funext fun a => Fin.ext (by
    match a with
    | ⟨0, _⟩ => exact (rhs_av_0 _ _).trans hk
    | ⟨1, _⟩ => exact rhs_av_1 _ _)
  rw [el, er]

/-! ## The tile's stages, each read at an index as the row's -/

/-- The tile of masked, scaled scores. -/
def tScore (x0 : Vec Ideal S1x1x512x64 .f32) (x1 : Vec Ideal S1x1x2048x64 .f32) (x3 : Vec Ideal S1x1x512x2048 .i32) :
    FVec Ideal S512x2048 .f32 :=
  select (cmpi .eq (shapeCast S512x2048 x3 shapeCasts_S1x1x512x2048_S512x2048) (broadcast S512x2048 0#32))
    (broadcast S512x2048 (Scalar.ofBits (F := Ideal) .f32 0x3089705F#32))
    (mulf (matmul (φ₁ := .f32) (φ₂ := .f32) dot_S512x64_S2048x64_S512x2048_1_1_0_0_n_n none (shapeCast S512x64 x0 shapeCasts_S1x1x512x64_S512x64)
        (shapeCast S2048x64 x1 shapeCasts_S1x1x2048x64_S2048x64) (constant (F := Ideal) S512x2048 .f32 0x00000000#32))
      (broadcast S512x2048 (Scalar.ofBits (F := Ideal) .f32 0x3E000000#32)))

/-- The rows' maxima. -/
def tMax (x0 : Vec Ideal S1x1x512x64 .f32) (x1 : Vec Ideal S1x1x2048x64 .f32) (x3 : Vec Ideal S1x1x512x2048 .i32) :
    FVec Ideal S512 .f32 :=
  multiReduction (F := Ideal) .maximumf [1] S512 (tScore x0 x1 x3) 0xFF800000#32 reduces_S512x2048_S512 (.inl rfl) rfl

/-- The tile of exponentials of the scores less their row's maximum. -/
def tExp (x0 : Vec Ideal S1x1x512x64 .f32) (x1 : Vec Ideal S1x1x2048x64 .f32) (x3 : Vec Ideal S1x1x512x2048 .i32) :
    FVec Ideal S512x2048 .f32 :=
  exp (subf (tScore x0 x1 x3)
    (broadcastTo S512x2048 (shapeCast S512x1 (tMax x0 x1 x3) shapeCasts_S512_S512x1) broadcasts_S512x1_S512x2048))

/-- The rows' sums of exponentials. -/
def tDen (x0 : Vec Ideal S1x1x512x64 .f32) (x1 : Vec Ideal S1x1x2048x64 .f32) (x3 : Vec Ideal S1x1x512x2048 .i32) :
    FVec Ideal S512 .f32 :=
  multiReduction (F := Ideal) .add [1] S512 (tExp x0 x1 x3) 0x00000000#32 reduces_S512x2048_S512 (.inl rfl) rfl

/-- The attention tile is the exponentials times the broadcast reciprocals of the sums. -/
theorem k0_pay3_eq (x0 : Vec Ideal S1x1x512x64 .f32) (x1 : Vec Ideal S1x1x2048x64 .f32) (x3 : Vec Ideal S1x1x512x2048 .i32) :
    k0_pay3 (F := Ideal) x0 x1 x3
      = mulf (tExp x0 x1 x3) (broadcastTo S512x2048
          (divf (broadcast S512x1 (Scalar.ofBits (F := Ideal) .f32 0x3F800000#32)) (shapeCast S512x1 (tDen x0 x1 x3) shapeCasts_S512_S512x1))
          broadcasts_S512x1_S512x2048) := rfl

section Row
variable (x0 : Vec Ideal S1x1x512x64 .f32) (x1 : Vec Ideal S1x1x2048x64 .f32) (x3 : Vec Ideal S1x1x512x2048 .i32) (p : Fin 512)

theorem tScore_apply (c : Fin 2048) :
    tScore x0 x1 x3 (ix2 p c)
      = score (fun d => x0 (ix4 0 0 p d)) (fun c' d => x1 (ix4 0 0 c' d)) (fun c' => x3 (ix4 0 0 p c')) eighth c := by
  unfold tScore score
  show Scalar.select (IntOp.cmpi .eq (shapeCast S512x2048 x3 shapeCasts_S1x1x512x2048_S512x2048 (ix2 p c)) 0#32) fill
      (matmul (φ₁ := .f32) (φ₂ := .f32) dot_S512x64_S2048x64_S512x2048_1_1_0_0_n_n none (shapeCast S512x64 x0 shapeCasts_S1x1x512x64_S512x64)
        (shapeCast S2048x64 x1 shapeCasts_S1x1x2048x64_S2048x64) (constant (F := Ideal) S512x2048 .f32 0x00000000#32) (ix2 p c) * eighth) = _
  rw [shapeCast_11ab_ab_apply x3, matmul_qk_apply]
  refine congrArg (fun t => Scalar.select _ fill (t * eighth)) (Finset.sum_congr rfl fun d _ => ?_)
  rw [shapeCast_11ab_ab_apply x0, shapeCast_11ab_ab_apply x1]

theorem tMax_apply :
    tMax x0 x1 x3 (ix1 p)
      = rowMax (fun d => x0 (ix4 0 0 p d)) (fun c' d => x1 (ix4 0 0 c' d)) (fun c' => x3 (ix4 0 0 p c')) eighth := by
  unfold tMax rowMax
  rw [rowMax_apply]
  exact congrArg (Finset.univ.fold max negInf) (funext fun c => tScore_apply x0 x1 x3 p c)

theorem tExp_apply (c : Fin 2048) :
    tExp x0 x1 x3 (ix2 p c)
      = expo (fun d => x0 (ix4 0 0 p d)) (fun c' d => x1 (ix4 0 0 c' d)) (fun c' => x3 (ix4 0 0 p c')) eighth
          (rowMax (fun d => x0 (ix4 0 0 p d)) (fun c' d => x1 (ix4 0 0 c' d)) (fun c' => x3 (ix4 0 0 p c')) eighth) c := by
  unfold tExp expo
  show Ideal.exp (tScore x0 x1 x3 (ix2 p c)
      - broadcastTo S512x2048 (shapeCast S512x1 (tMax x0 x1 x3) shapeCasts_S512_S512x1) broadcasts_S512x1_S512x2048 (ix2 p c)) = _
  rw [broadcastTo_a1_ab_apply, shapeCast_a_a1_apply, tScore_apply, tMax_apply]

theorem tDen_apply :
    tDen x0 x1 x3 (ix1 p)
      = denom (fun d => x0 (ix4 0 0 p d)) (fun c' d => x1 (ix4 0 0 c' d)) (fun c' => x3 (ix4 0 0 p c')) eighth
          (rowMax (fun d => x0 (ix4 0 0 p d)) (fun c' d => x1 (ix4 0 0 c' d)) (fun c' => x3 (ix4 0 0 p c')) eighth) := by
  unfold tDen denom
  rw [rowSum_apply]
  exact Finset.sum_congr rfl fun c _ => tExp_apply x0 x1 x3 p c

end Row

end Tile

open Tile

theorem tile_attn (x0 : Vec Ideal S1x1x512x64 .f32) (x1 : Vec Ideal S1x1x2048x64 .f32) (x3 : Vec Ideal S1x1x512x2048 .i32)
    (p : Fin 512) (c : Fin 2048) :
    k0_pay3 (F := Ideal) x0 x1 x3 (ix2 p c)
      = attnMul (fun d => x0 (ix4 0 0 p d)) (fun c' d => x1 (ix4 0 0 c' d)) (fun c' => x3 (ix4 0 0 p c')) c := by
  rw [k0_pay3_eq]
  unfold attnMul
  show tExp x0 x1 x3 (ix2 p c) * broadcastTo S512x2048
      (divf (broadcast S512x1 (Scalar.ofBits (F := Ideal) .f32 0x3F800000#32)) (shapeCast S512x1 (tDen x0 x1 x3) shapeCasts_S512_S512x1))
      broadcasts_S512x1_S512x2048 (ix2 p c) = _
  rw [broadcastTo_a1_ab_apply]
  show _ * Ideal.div one32 (shapeCast S512x1 (tDen x0 x1 x3) shapeCasts_S512_S512x1 (ix2 p 0)) = _
  rw [shapeCast_a_a1_apply, tExp_apply, tDen_apply]

theorem tile_out (x0 : Vec Ideal S1x1x512x64 .f32) (x1 x2 : Vec Ideal S1x1x2048x64 .f32) (x3 : Vec Ideal S1x1x512x2048 .i32)
    (p : Fin 512) (d : Fin 64) :
    k0_pay4 (F := Ideal) x0 x1 x2 x3 (ix2 p d)
      = outMul (fun d => x0 (ix4 0 0 p d)) (fun c' d => x1 (ix4 0 0 c' d)) (fun c' d => x2 (ix4 0 0 c' d)) (fun c' => x3 (ix4 0 0 p c')) d := by
  unfold k0_pay4 outMul
  dsimp only
  rw [matmul_av_apply]
  refine Finset.sum_congr rfl fun c _ => ?_
  rw [tile_attn, shapeCast_11ab_ab_apply x2]

end Cert.Attention

end
-- ==== Proof.Blocks.lean ====
/-
  From the kernel's grid points to its two result arrays.

  The grid has 2 × 4 × 12 points (batch b, query tile qi, head h). At a point the body reads the query block
  q[b, h, 512·qi .. 512·qi+511, :], one head's slice of the key and value blocks k[b, :, :, :], v[b, :, :, :] (all twelve
  heads are staged; the body takes rows [0, h, :, :] of them) and the mask block mask[b, 0, 512·qi .., :], and stores one
  block of each result at block index (b, h, qi, 0). This module says what each point writes back, index by index, as the
  first spelling of an attention row (Proof/Spec.lean, through Proof/TileRow.lean), shows that the 96 blocks tile each
  result array, and so names each whole result array after the run as one function of the argument arrays.
-/
import proofs.«424045_j71519795413418_3_alg».proof.Proof.Gen.KernelIdeal.Value
import proofs.«424045_j71519795413418_3_alg».proof.Proof.TileRow
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.Attention

open Cert.KernelIdeal Cert.KernelIdeal.Gen Cert.KernelIdeal.Value

/-! ## The two result arrays as functions of the argument arrays -/

/-- The attention array: entry (b, h, r, c) is entry c of the attention row of query q[b, h, r, :] against the keys
    k[b, h, :, :] under the mask row mask[b, 0, r, :]. -/
def attnArr (q k : S2x12x2048x64.Idx → EReal) (mk : S2x1x2048x2048.Idx → BitVec 32) : S2x12x2048x2048.Idx → EReal :=
  fun i => attnMul (fun d => q (ix4 (i 0) (i 1) (i 2) d)) (fun c' d => k (ix4 (i 0) (i 1) c' d)) (fun c' => mk (ix4 (i 0) 0 (i 2) c')) (i 3)

/-- The output array: entry (b, h, r, d) is feature d of that row's weighted sum of the value rows v[b, h, :, :]. -/
def outArr (q k v : S2x12x2048x64.Idx → EReal) (mk : S2x1x2048x2048.Idx → BitVec 32) : S2x12x2048x64.Idx → EReal :=
  fun i => outMul (fun d => q (ix4 (i 0) (i 1) (i 2) d)) (fun c' d => k (ix4 (i 0) (i 1) c' d)) (fun c' d => v (ix4 (i 0) (i 1) c' d)) (fun c' => mk (ix4 (i 0) 0 (i 2) c')) (i 3)

/-! ## What the body leaves in each result's staging buffer -/

section Pieces
variable {F : FTy → Type} [FloatOps F]

theorem hz4 : (![0, 0, 0, 0] : Fin 4 → Nat) = fun _ => 0 := funext fun a => by fin_cases a <;> rfl

/-- One head's rows inside a block that holds all twelve heads: the rectangle the body loads keys and values through. -/
abbrev headRect (i : grid0.Coords) : Rect S1x12x2048x64 :=
  Rect.unit (s := S1x12x2048x64) (k0_off1 i) S1x1x2048x64.size (k0_off1_inb i)

/-- The output's staging buffer ends holding the body's one store into it: the second product, of the attention tile and
    the head's value rows. -/
theorem piece4 (c : Dev nD) (i : grid0.Coords) (a3 : Memref sig .tc .vmem S1x1x512x64 .f32) (h3 : a3.IsWhole) (a4 : Memref sig .tc .vmem S1x12x2048x64 .f32) (h4 : a4.IsWhole) (a5 : Memref sig .tc .vmem S1x12x2048x64 .f32) (h5 : a5.IsWhole) (a6 : Memref sig .tc .vmem S1x1x512x2048 .i32) (h6 : a6.IsWhole) (a7 : Memref sig .tc .vmem S1x1x512x64 .f32) (h7 : a7.IsWhole) (a8 : Memref sig .tc .vmem S1x1x512x2048 .f32) (h8 : a8.IsWhole)
    (x0 : Vec F S1x1x512x64 .f32) (x1 : Vec F S1x12x2048x64 .f32) (x2 : Vec F S1x12x2048x64 .f32) (x3 : Vec F S1x1x512x2048 .i32) :
    out0_A_4 c i a3 h3 a4 h4 a5 h5 a6 h6 a7 h7 a8 h8 x0 x1 x2 x3 = k0_pay1 (k0_pay4 x0 (View.ld x1 (headRect i)) (View.ld x2 (headRect i)) x3) := by
  unfold out0_A_4
  rw [View.read_writes_eq_canon _ _ _ (cover0_A_4 c i a3 h3 a4 h4 a5 h5 a6 h6 a7 h7 a8 h8 x0 x1 x2 x3)]
  unfold kernelRun0_A
  dsimp only
  sl_unfold_words
  rw [View.canon_unit_zero hz4]
  simp only [View.readAt_eq_ld, h3.read_unread, h4.read_unread, h5.read_unread, h6.read_unread, View.ld_unit_zero (S := S1x1x512x64) hz4, View.ld_unit_zero (S := S1x1x512x2048) hz4]
  rfl

/-- The attention's staging buffer ends holding the body's one store into it: the attention tile. -/
theorem piece5 (c : Dev nD) (i : grid0.Coords) (a3 : Memref sig .tc .vmem S1x1x512x64 .f32) (h3 : a3.IsWhole) (a4 : Memref sig .tc .vmem S1x12x2048x64 .f32) (h4 : a4.IsWhole) (a5 : Memref sig .tc .vmem S1x12x2048x64 .f32) (h5 : a5.IsWhole) (a6 : Memref sig .tc .vmem S1x1x512x2048 .i32) (h6 : a6.IsWhole) (a7 : Memref sig .tc .vmem S1x1x512x64 .f32) (h7 : a7.IsWhole) (a8 : Memref sig .tc .vmem S1x1x512x2048 .f32) (h8 : a8.IsWhole)
    (x0 : Vec F S1x1x512x64 .f32) (x1 : Vec F S1x12x2048x64 .f32) (x2 : Vec F S1x12x2048x64 .f32) (x3 : Vec F S1x1x512x2048 .i32) :
    out0_A_5 c i a3 h3 a4 h4 a5 h5 a6 h6 a7 h7 a8 h8 x0 x1 x2 x3 = k0_pay2 (k0_pay3 x0 (View.ld x1 (headRect i)) x3) := by
  unfold out0_A_5
  rw [View.read_writes_eq_canon _ _ _ (cover0_A_5 c i a3 h3 a4 h4 a5 h5 a6 h6 a7 h7 a8 h8 x0 x1 x2 x3)]
  unfold kernelRun0_A
  dsimp only
  sl_unfold_words
  rw [View.canon_unit_zero hz4]
  simp only [View.readAt_eq_ld, h3.read_unread, h4.read_unread, h5.read_unread, h6.read_unread, View.ld_unit_zero (S := S1x1x512x64) hz4, View.ld_unit_zero (S := S1x1x512x2048) hz4]
  rfl

/-- A matrix cast to a block with two leading unit axes, read at an index, is the matrix at the trailing coordinates. -/
theorem shapeCast_ab_11ab_apply {α : Type} {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    rw [hu, hw, Nat.zero_mul, Nat.zero_add])

end Pieces

/-! ## The printed index maps, decided over the 96 grid points -/

/-- The output's block index at a point is (b, h, qi, 0) with b < 2, h < 12, qi < 4. -/
theorem idx4 : ∀ t : Fin cfg0.N, win0_4.index t (0 : Fin 4) < 2 ∧ win0_4.index t (1 : Fin 4) < 12 ∧ win0_4.index t (2 : Fin 4) < 4 ∧ win0_4.index t (3 : Fin 4) = 0 :=
  (by decide +kernel : ∀ t : Fin grid0.N, _)
/-- The attention's block index is the output's. -/
theorem idx5 : ∀ t : Fin cfg0.N, win0_5.index t (0 : Fin 4) = win0_4.index t (0 : Fin 4) ∧ win0_5.index t (1 : Fin 4) = win0_4.index t (1 : Fin 4) ∧ win0_5.index t (2 : Fin 4) = win0_4.index t (2 : Fin 4) ∧ win0_5.index t (3 : Fin 4) = 0 :=
  (by decide +kernel : ∀ t : Fin grid0.N, _)
/-- The query's block index is the output's. -/
theorem idx0 : ∀ t : Fin cfg0.N, win0_0.index t (0 : Fin 4) = win0_4.index t (0 : Fin 4) ∧ win0_0.index t (1 : Fin 4) = win0_4.index t (1 : Fin 4) ∧ win0_0.index t (2 : Fin 4) = win0_4.index t (2 : Fin 4) ∧ win0_0.index t (3 : Fin 4) = 0 :=
  (by decide +kernel : ∀ t : Fin grid0.N, _)
/-- The key block is the whole batch entry (b, 0, 0, 0). -/
theorem idx1 : ∀ t : Fin cfg0.N, win0_1.index t (0 : Fin 4) = win0_4.index t (0 : Fin 4) ∧ win0_1.index t (1 : Fin 4) = 0 ∧ win0_1.index t (2 : Fin 4) = 0 ∧ win0_1.index t (3 : Fin 4) = 0 :=
  (by decide +kernel : ∀ t : Fin grid0.N, _)
/-- The value block likewise. -/
theorem idx2 : ∀ t : Fin cfg0.N, win0_2.index t (0 : Fin 4) = win0_4.index t (0 : Fin 4) ∧ win0_2.index t (1 : Fin 4) = 0 ∧ win0_2.index t (2 : Fin 4) = 0 ∧ win0_2.index t (3 : Fin 4) = 0 :=
  (by decide +kernel : ∀ t : Fin grid0.N, _)
/-- The mask block is (b, 0, qi, 0). -/
theorem idx3 : ∀ t : Fin cfg0.N, win0_3.index t (0 : Fin 4) = win0_4.index t (0 : Fin 4) ∧ win0_3.index t (1 : Fin 4) = 0 ∧ win0_3.index t (2 : Fin 4) = win0_4.index t (2 : Fin 4) ∧ win0_3.index t (3 : Fin 4) = 0 :=
  (by decide +kernel : ∀ t : Fin grid0.N, _)
/-- The head slice the body loads starts at row (0, h, 0, 0) of the staged block, h the output's head index. -/
theorem offk : ∀ t : Fin cfg0.N, k0_off1 (grid0.coords t) (0 : Fin 4) = 0 ∧ k0_off1 (grid0.coords t) (1 : Fin 4) = win0_4.index t (1 : Fin 4)
    ∧ k0_off1 (grid0.coords t) (2 : Fin 4) = 0 ∧ k0_off1 (grid0.coords t) (3 : Fin 4) = 0 :=
  (by decide +kernel : ∀ t : Fin grid0.N, _)
/-- Every block index (b, h, qi, 0) is some point's. -/
theorem idx_onto4 : ∀ (b : Fin 2) (h : Fin 12) (qi : Fin 4), ∃ t : Fin cfg0.N, win0_4.index t = ![b.val, h.val, qi.val, 0] :=
  (by decide +kernel : ∀ (b : Fin 2) (h : Fin 12) (qi : Fin 4), ∃ t : Fin grid0.N, win0_4.index t = ![b.val, h.val, qi.val, 0])

/-! ## One tile, over variables: the stored blocks are blocks of the two arrays -/

section Tile
variable [Cert.KernelIdeal.Facts]
variable (i : grid0.Coords) (x0 : Vec Ideal S1x1x512x64 .f32) (x1 x2 : Vec Ideal S1x12x2048x64 .f32) (x3 : Vec Ideal S1x1x512x2048 .i32)
  (q k v : S2x12x2048x64.Idx → EReal) (mk : S2x1x2048x2048.Idx → BitVec 32)
  (b : Fin 2) (h : Fin 12) (r : Fin 512 → Fin 2048)

/-- If the loaded query block, head slices and mask block are the rows (b, h, r p), (b, h, ·) and (b, 0, r p) of the
    arrays, the stored output block at (p, d) is the output array at (b, h, r p, d). -/
theorem out_tile
    (hx0 : ∀ (p : Fin 512) (d : Fin 64), x0 (ix4 (0 : Fin 1) (0 : Fin 1) p d) = q (ix4 b h (r p) d))
    (hx1 : ∀ (c' : Fin 2048) (d : Fin 64), View.ld x1 (headRect i) (ix4 (0 : Fin 1) (0 : Fin 1) c' d) = k (ix4 b h c' d))
    (hx2 : ∀ (c' : Fin 2048) (d : Fin 64), View.ld x2 (headRect i) (ix4 (0 : Fin 1) (0 : Fin 1) c' d) = v (ix4 b h c' d))
    (hx3 : ∀ (p : Fin 512) (c' : Fin 2048), x3 (ix4 (0 : Fin 1) (0 : Fin 1) p c') = mk (ix4 b (0 : Fin 1) (r p) c'))
    (u w : Fin 1) (p : Fin 512) (d : Fin 64) :
    k0_pay1 (k0_pay4 x0 (View.ld x1 (headRect i)) (View.ld x2 (headRect i)) x3) (ix4 u w p d) = outArr q k v mk (ix4 b h (r p) d) := by
  unfold k0_pay1
  rw [shapeCast_ab_11ab_apply, tile_out]
  unfold outArr
  simp only [hx0, hx1, hx2, hx3]

/-- The same for the stored attention block at (p, c). -/
theorem attn_tile
    (hx0 : ∀ (p : Fin 512) (d : Fin 64), x0 (ix4 (0 : Fin 1) (0 : Fin 1) p d) = q (ix4 b h (r p) d))
    (hx1 : ∀ (c' : Fin 2048) (d : Fin 64), View.ld x1 (headRect i) (ix4 (0 : Fin 1) (0 : Fin 1) c' d) = k (ix4 b h c' d))
    (hx3 : ∀ (p : Fin 512) (c' : Fin 2048), x3 (ix4 (0 : Fin 1) (0 : Fin 1) p c') = mk (ix4 b (0 : Fin 1) (r p) c'))
    (u w : Fin 1) (p : Fin 512) (c : Fin 2048) :
    k0_pay2 (k0_pay3 x0 (View.ld x1 (headRect i)) x3) (ix4 u w p c) = attnArr q k mk (ix4 b h (r p) c) := by
  unfold k0_pay2
  rw [shapeCast_ab_11ab_apply, tile_attn]
  unfold attnArr
  simp only [hx0, hx1, hx3]

end Tile

/-! ## What a point writes back is a block of the arrays -/

section Run
variable [Cert.KernelIdeal.Facts]
variable (m : (ℓ : Loc nD τ sig) → Buf (Elt Ideal) ℓ) (ρ : Dev nD → PrngReg)

/-- The output array of the argument arrays as the region finds them. -/
abbrev outOf (c : Dev nD) : S2x12x2048x64.Idx → EReal :=
  outArr (V m c main_arg0) (V m c main_arg1) (V m c main_arg2) (V m c main_arg3)
/-- The attention array of the argument arrays as the region finds them. -/
abbrev attnOf (c : Dev nD) : S2x12x2048x2048.Idx → EReal :=
  attnArr (V m c main_arg0) (V m c main_arg1) (V m c main_arg3)

/-- WHAT POINT `t` WRITES BACK to the output is block `t` of the output array. -/
theorem flushed4_eq (c : Dev nD) (t : Fin cfg0.N) :
    (dats m 0 c).flushed 4 t = ((cfg0.win 4).blk t).view.read (Elt Ideal) (outOf m c) := by
  rw [flushed4_A, piece4]
  obtain ⟨b0, b1, b2, b3⟩ := idx4 t
  obtain ⟨e00, e01, e02, e03⟩ := idx0 t
  obtain ⟨e10, e11, e12, e13⟩ := idx1 t
  obtain ⟨e20, e21, e22, e23⟩ := idx2 t
  obtain ⟨e30, e31, e32, e33⟩ := idx3 t
  obtain ⟨o0, o1, o2, o3⟩ := offk t
  have hx0 : ∀ (p : Fin 512) (d : Fin 64), (iblk m c 0 t : Vec Ideal S1x1x512x64 .f32) (ix4 (0 : Fin 1) (0 : Fin 1) p d)
      = (V m c main_arg0 : S2x12x2048x64.Idx → EReal) (ix4 (⟨win0_4.index t (0 : Fin 4), b0⟩ : Fin 2) (⟨win0_4.index t (1 : Fin 4), b1⟩ : Fin 12) ((fun p : Fin 512 => (⟨win0_4.index t (2 : Fin 4) * 512 + p.val, by have := p.isLt; omega⟩ : Fin 2048)) p) d) := by
    intro p d
    show (V m c main_arg0 : S2x12x2048x64.Idx → EReal) (((cfg0.win 0).blk t).view.emb (ix4 (0 : Fin 1) (0 : Fin 1) p d)) = _
    refine congrArg _ (funext fun a => Fin.ext ?_)
    match a with
    | ⟨0, _⟩ => show win0_0.index t (0 : Fin 4) * 1 + 1 * 0 = win0_4.index t (0 : Fin 4); omega
    | ⟨1, _⟩ => show win0_0.index t (1 : Fin 4) * 1 + 1 * 0 = win0_4.index t (1 : Fin 4); omega
    | ⟨2, _⟩ => show win0_0.index t (2 : Fin 4) * 512 + 1 * p.val = win0_4.index t (2 : Fin 4) * 512 + p.val; omega
    | ⟨3, _⟩ => show win0_0.index t (3 : Fin 4) * 64 + 1 * d.val = d.val; omega
  have hx1 : ∀ (c' : Fin 2048) (d : Fin 64), View.ld (iblk m c 1 t : Vec Ideal S1x12x2048x64 .f32) (headRect (grid0.coords t)) (ix4 (0 : Fin 1) (0 : Fin 1) c' d)
      = (V m c main_arg1 : S2x12x2048x64.Idx → EReal) (ix4 (⟨win0_4.index t (0 : Fin 4), b0⟩ : Fin 2) (⟨win0_4.index t (1 : Fin 4), b1⟩ : Fin 12) c' d) := by
    intro c' d
    show (V m c main_arg1 : S2x12x2048x64.Idx → EReal) (((cfg0.win 1).blk t).view.emb ((headRect (grid0.coords t)).idx (ix4 (0 : Fin 1) (0 : Fin 1) c' d))) = _
    refine congrArg _ (funext fun a => Fin.ext ?_)
    match a with
    | ⟨0, _⟩ => show win0_1.index t (0 : Fin 4) * 1 + 1 * (k0_off1 (grid0.coords t) (0 : Fin 4) + 1 * 0) = win0_4.index t (0 : Fin 4); omega
    | ⟨1, _⟩ => show win0_1.index t (1 : Fin 4) * 12 + 1 * (k0_off1 (grid0.coords t) (1 : Fin 4) + 1 * 0) = win0_4.index t (1 : Fin 4); omega
    | ⟨2, _⟩ => show win0_1.index t (2 : Fin 4) * 2048 + 1 * (k0_off1 (grid0.coords t) (2 : Fin 4) + 1 * c'.val) = c'.val; omega
    | ⟨3, _⟩ => show win0_1.index t (3 : Fin 4) * 64 + 1 * (k0_off1 (grid0.coords t) (3 : Fin 4) + 1 * d.val) = d.val; omega
  have hx3 : ∀ (p : Fin 512) (c' : Fin 2048), (iblk m c 3 t : Vec Ideal S1x1x512x2048 .i32) (ix4 (0 : Fin 1) (0 : Fin 1) p c')
      = (V m c main_arg3 : S2x1x2048x2048.Idx → BitVec 32) (ix4 (⟨win0_4.index t (0 : Fin 4), b0⟩ : Fin 2) (0 : Fin 1) ((fun p : Fin 512 => (⟨win0_4.index t (2 : Fin 4) * 512 + p.val, by have := p.isLt; omega⟩ : Fin 2048)) p) c') := by
    intro p c'
    show (V m c main_arg3 : S2x1x2048x2048.Idx → BitVec 32) (((cfg0.win 3).blk t).view.emb (ix4 (0 : Fin 1) (0 : Fin 1) p c')) = _
    refine congrArg _ (funext fun a => Fin.ext ?_)
    match a with
    | ⟨0, _⟩ => show win0_3.index t (0 : Fin 4) * 1 + 1 * 0 = win0_4.index t (0 : Fin 4); omega
    | ⟨1, _⟩ => show win0_3.index t (1 : Fin 4) * 1 + 1 * 0 = 0; omega
    | ⟨2, _⟩ => show win0_3.index t (2 : Fin 4) * 512 + 1 * p.val = win0_4.index t (2 : Fin 4) * 512 + p.val; omega
    | ⟨3, _⟩ => show win0_3.index t (3 : Fin 4) * 2048 + 1 * c'.val = c'.val; omega
  have hx2 : ∀ (c' : Fin 2048) (d : Fin 64), View.ld (iblk m c 2 t : Vec Ideal S1x12x2048x64 .f32) (headRect (grid0.coords t)) (ix4 (0 : Fin 1) (0 : Fin 1) c' d)
      = (V m c main_arg2 : S2x12x2048x64.Idx → EReal) (ix4 (⟨win0_4.index t (0 : Fin 4), b0⟩ : Fin 2) (⟨win0_4.index t (1 : Fin 4), b1⟩ : Fin 12) c' d) := by
    intro c' d
    show (V m c main_arg2 : S2x12x2048x64.Idx → EReal) (((cfg0.win 2).blk t).view.emb ((headRect (grid0.coords t)).idx (ix4 (0 : Fin 1) (0 : Fin 1) c' d))) = _
    refine congrArg _ (funext fun a => Fin.ext ?_)
    match a with
    | ⟨0, _⟩ => show win0_2.index t (0 : Fin 4) * 1 + 1 * (k0_off1 (grid0.coords t) (0 : Fin 4) + 1 * 0) = win0_4.index t (0 : Fin 4); omega
    | ⟨1, _⟩ => show win0_2.index t (1 : Fin 4) * 12 + 1 * (k0_off1 (grid0.coords t) (1 : Fin 4) + 1 * 0) = win0_4.index t (1 : Fin 4); omega
    | ⟨2, _⟩ => show win0_2.index t (2 : Fin 4) * 2048 + 1 * (k0_off1 (grid0.coords t) (2 : Fin 4) + 1 * c'.val) = c'.val; omega
    | ⟨3, _⟩ => show win0_2.index t (3 : Fin 4) * 64 + 1 * (k0_off1 (grid0.coords t) (3 : Fin 4) + 1 * d.val) = d.val; omega
  funext y
  obtain ⟨u, w, p, d, rfl⟩ : ∃ (u w : Fin 1) (p : Fin 512) (d : Fin 64), y = ix4 u w p d := ⟨y 0, y 1, y 2, y 3, eq_ix4 y⟩
  show k0_pay1 (k0_pay4 (iblk m c 0 t) (View.ld (iblk m c 1 t) (headRect (grid0.coords t))) (View.ld (iblk m c 2 t) (headRect (grid0.coords t))) (iblk m c 3 t)) (ix4 u w p d)
    = outOf m c (((cfg0.win 4).blk t).view.emb (ix4 u w p d))
  have hemb : ((cfg0.win 4).blk t).view.emb (ix4 u w p d) = ix4 (⟨win0_4.index t (0 : Fin 4), b0⟩ : Fin 2) (⟨win0_4.index t (1 : Fin 4), b1⟩ : Fin 12) ((fun p : Fin 512 => (⟨win0_4.index t (2 : Fin 4) * 512 + p.val, by have := p.isLt; omega⟩ : Fin 2048)) p) d := by
    funext a; apply Fin.ext
    match a with
    | ⟨0, _⟩ => show win0_4.index t (0 : Fin 4) * 1 + 1 * u.val = win0_4.index t (0 : Fin 4); omega
    | ⟨1, _⟩ => show win0_4.index t (1 : Fin 4) * 1 + 1 * w.val = win0_4.index t (1 : Fin 4); omega
    | ⟨2, _⟩ => show win0_4.index t (2 : Fin 4) * 512 + 1 * p.val = win0_4.index t (2 : Fin 4) * 512 + p.val; omega
    | ⟨3, _⟩ => show win0_4.index t (3 : Fin 4) * 64 + 1 * d.val = d.val; omega
  rw [hemb]
  exact out_tile (grid0.coords t) (iblk m c 0 t) (iblk m c 1 t) (iblk m c 2 t) (iblk m c 3 t)
    (V m c main_arg0) (V m c main_arg1) (V m c main_arg2) (V m c main_arg3) (⟨win0_4.index t (0 : Fin 4), b0⟩ : Fin 2) (⟨win0_4.index t (1 : Fin 4), b1⟩ : Fin 12) (fun p : Fin 512 => (⟨win0_4.index t (2 : Fin 4) * 512 + p.val, by have := p.isLt; omega⟩ : Fin 2048)) hx0 hx1 hx2 hx3 u w p d

/-- WHAT POINT `t` WRITES BACK to the attention is block `t` of the attention array. -/
theorem flushed5_eq (c : Dev nD) (t : Fin cfg0.N) :
    (dats m 0 c).flushed 5 t = ((cfg0.win 5).blk t).view.read (Elt Ideal) (attnOf m c) := by
  rw [flushed5_A, piece5]
  obtain ⟨b0, b1, b2, b3⟩ := idx4 t
  obtain ⟨e50, e51, e52, e53⟩ := idx5 t
  obtain ⟨e00, e01, e02, e03⟩ := idx0 t
  obtain ⟨e10, e11, e12, e13⟩ := idx1 t
  obtain ⟨e30, e31, e32, e33⟩ := idx3 t
  obtain ⟨o0, o1, o2, o3⟩ := offk t
  have hx0 : ∀ (p : Fin 512) (d : Fin 64), (iblk m c 0 t : Vec Ideal S1x1x512x64 .f32) (ix4 (0 : Fin 1) (0 : Fin 1) p d)
      = (V m c main_arg0 : S2x12x2048x64.Idx → EReal) (ix4 (⟨win0_4.index t (0 : Fin 4), b0⟩ : Fin 2) (⟨win0_4.index t (1 : Fin 4), b1⟩ : Fin 12) ((fun p : Fin 512 => (⟨win0_4.index t (2 : Fin 4) * 512 + p.val, by have := p.isLt; omega⟩ : Fin 2048)) p) d) := by
    intro p d
    show (V m c main_arg0 : S2x12x2048x64.Idx → EReal) (((cfg0.win 0).blk t).view.emb (ix4 (0 : Fin 1) (0 : Fin 1) p d)) = _
    refine congrArg _ (funext fun a => Fin.ext ?_)
    match a with
    | ⟨0, _⟩ => show win0_0.index t (0 : Fin 4) * 1 + 1 * 0 = win0_4.index t (0 : Fin 4); omega
    | ⟨1, _⟩ => show win0_0.index t (1 : Fin 4) * 1 + 1 * 0 = win0_4.index t (1 : Fin 4); omega
    | ⟨2, _⟩ => show win0_0.index t (2 : Fin 4) * 512 + 1 * p.val = win0_4.index t (2 : Fin 4) * 512 + p.val; omega
    | ⟨3, _⟩ => show win0_0.index t (3 : Fin 4) * 64 + 1 * d.val = d.val; omega
  have hx1 : ∀ (c' : Fin 2048) (d : Fin 64), View.ld (iblk m c 1 t : Vec Ideal S1x12x2048x64 .f32) (headRect (grid0.coords t)) (ix4 (0 : Fin 1) (0 : Fin 1) c' d)
      = (V m c main_arg1 : S2x12x2048x64.Idx → EReal) (ix4 (⟨win0_4.index t (0 : Fin 4), b0⟩ : Fin 2) (⟨win0_4.index t (1 : Fin 4), b1⟩ : Fin 12) c' d) := by
    intro c' d
    show (V m c main_arg1 : S2x12x2048x64.Idx → EReal) (((cfg0.win 1).blk t).view.emb ((headRect (grid0.coords t)).idx (ix4 (0 : Fin 1) (0 : Fin 1) c' d))) = _
    refine congrArg _ (funext fun a => Fin.ext ?_)
    match a with
    | ⟨0, _⟩ => show win0_1.index t (0 : Fin 4) * 1 + 1 * (k0_off1 (grid0.coords t) (0 : Fin 4) + 1 * 0) = win0_4.index t (0 : Fin 4); omega
    | ⟨1, _⟩ => show win0_1.index t (1 : Fin 4) * 12 + 1 * (k0_off1 (grid0.coords t) (1 : Fin 4) + 1 * 0) = win0_4.index t (1 : Fin 4); omega
    | ⟨2, _⟩ => show win0_1.index t (2 : Fin 4) * 2048 + 1 * (k0_off1 (grid0.coords t) (2 : Fin 4) + 1 * c'.val) = c'.val; omega
    | ⟨3, _⟩ => show win0_1.index t (3 : Fin 4) * 64 + 1 * (k0_off1 (grid0.coords t) (3 : Fin 4) + 1 * d.val) = d.val; omega
  have hx3 : ∀ (p : Fin 512) (c' : Fin 2048), (iblk m c 3 t : Vec Ideal S1x1x512x2048 .i32) (ix4 (0 : Fin 1) (0 : Fin 1) p c')
      = (V m c main_arg3 : S2x1x2048x2048.Idx → BitVec 32) (ix4 (⟨win0_4.index t (0 : Fin 4), b0⟩ : Fin 2) (0 : Fin 1) ((fun p : Fin 512 => (⟨win0_4.index t (2 : Fin 4) * 512 + p.val, by have := p.isLt; omega⟩ : Fin 2048)) p) c') := by
    intro p c'
    show (V m c main_arg3 : S2x1x2048x2048.Idx → BitVec 32) (((cfg0.win 3).blk t).view.emb (ix4 (0 : Fin 1) (0 : Fin 1) p c')) = _
    refine congrArg _ (funext fun a => Fin.ext ?_)
    match a with
    | ⟨0, _⟩ => show win0_3.index t (0 : Fin 4) * 1 + 1 * 0 = win0_4.index t (0 : Fin 4); omega
    | ⟨1, _⟩ => show win0_3.index t (1 : Fin 4) * 1 + 1 * 0 = 0; omega
    | ⟨2, _⟩ => show win0_3.index t (2 : Fin 4) * 512 + 1 * p.val = win0_4.index t (2 : Fin 4) * 512 + p.val; omega
    | ⟨3, _⟩ => show win0_3.index t (3 : Fin 4) * 2048 + 1 * c'.val = c'.val; omega
  funext y
  obtain ⟨u, w, p, cc, rfl⟩ : ∃ (u w : Fin 1) (p : Fin 512) (cc : Fin 2048), y = ix4 u w p cc := ⟨y 0, y 1, y 2, y 3, eq_ix4 y⟩
  show k0_pay2 (k0_pay3 (iblk m c 0 t) (View.ld (iblk m c 1 t) (headRect (grid0.coords t))) (iblk m c 3 t)) (ix4 u w p cc)
    = attnOf m c (((cfg0.win 5).blk t).view.emb (ix4 u w p cc))
  have hemb : ((cfg0.win 5).blk t).view.emb (ix4 u w p cc) = ix4 (⟨win0_4.index t (0 : Fin 4), b0⟩ : Fin 2) (⟨win0_4.index t (1 : Fin 4), b1⟩ : Fin 12) ((fun p : Fin 512 => (⟨win0_4.index t (2 : Fin 4) * 512 + p.val, by have := p.isLt; omega⟩ : Fin 2048)) p) cc := by
    funext a; apply Fin.ext
    match a with
    | ⟨0, _⟩ => show win0_5.index t (0 : Fin 4) * 1 + 1 * u.val = win0_4.index t (0 : Fin 4); omega
    | ⟨1, _⟩ => show win0_5.index t (1 : Fin 4) * 1 + 1 * w.val = win0_4.index t (1 : Fin 4); omega
    | ⟨2, _⟩ => show win0_5.index t (2 : Fin 4) * 512 + 1 * p.val = win0_4.index t (2 : Fin 4) * 512 + p.val; omega
    | ⟨3, _⟩ => show win0_5.index t (3 : Fin 4) * 2048 + 1 * cc.val = cc.val; omega
  rw [hemb]
  exact attn_tile (grid0.coords t) (iblk m c 0 t) (iblk m c 1 t) (iblk m c 3 t)
    (V m c main_arg0) (V m c main_arg1) (V m c main_arg3) (⟨win0_4.index t (0 : Fin 4), b0⟩ : Fin 2) (⟨win0_4.index t (1 : Fin 4), b1⟩ : Fin 12) (fun p : Fin 512 => (⟨win0_4.index t (2 : Fin 4) * 512 + p.val, by have := p.isLt; omega⟩ : Fin 2048)) hx0 hx1 hx3 u w p cc

end Run

/-! ## The blocks tile the arrays -/

/-- An index of the array is in point `t`'s block of window 4 iff each coordinate is in the block's range on its axis. -/
theorem mem_blk4 (t : Fin cfg0.N) (i : S2x12x2048x64.Idx) :
    i ∈ ((cfg0.win 4).blk t).view.set ↔ ∀ a : Fin 4, win0_4.index t a * S1x1x512x64.size a ≤ (i a).val ∧ (i a).val < win0_4.index t a * S1x1x512x64.size a + S1x1x512x64.size a := by
  show i ∈ ((View.whole main_v0_0).slice (win0_4.rect t)).set ↔ _
  rw [View.set_slice_whole, Rect.mem_set_unit]
  exact Iff.rfl

/-- An index of the array is in point `t`'s block of window 5 iff each coordinate is in the block's range on its axis. -/
theorem mem_blk5 (t : Fin cfg0.N) (i : S2x12x2048x2048.Idx) :
    i ∈ ((cfg0.win 5).blk t).view.set ↔ ∀ a : Fin 4, win0_5.index t a * S1x1x512x2048.size a ≤ (i a).val ∧ (i a).val < win0_5.index t a * S1x1x512x2048.size a + S1x1x512x2048.size a := by
  show i ∈ ((View.whole main_v0_1).slice (win0_5.rect t)).set ↔ _
  rw [View.set_slice_whole, Rect.mem_set_unit]
  exact Iff.rfl

/-- Every index of the array lies in some point's block of window 4: the point whose block index is (b, h, r / 512, 0). -/
theorem cover4 (i : S2x12x2048x64.Idx) : ∃ t : Fin cfg0.N, (cfg0.win 4).flush t = true ∧ i ∈ ((cfg0.win 4).blk t).view.set := by
  have hi0 : (i 0).val < 2 := (i 0).isLt
  have hi1 : (i 1).val < 12 := (i 1).isLt
  have hi2 : (i 2).val < 2048 := (i 2).isLt
  have hi3 : (i 3).val < 64 := (i 3).isLt
  obtain ⟨t, ht⟩ := idx_onto4 ⟨(i 0).val, hi0⟩ ⟨(i 1).val, hi1⟩ ⟨(i 2).val / 512, by omega⟩
  have q0 : win0_4.index t (0 : Fin 4) = (i 0).val := congrFun ht 0
  have q1 : win0_4.index t (1 : Fin 4) = (i 1).val := congrFun ht 1
  have q2 : win0_4.index t (2 : Fin 4) = (i 2).val / 512 := congrFun ht 2
  have q3 : win0_4.index t (3 : Fin 4) = 0 := congrFun ht 3
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-- Every index of the array lies in some point's block of window 5: the point whose block index is (b, h, r / 512, 0). -/
theorem cover5 (i : S2x12x2048x2048.Idx) : ∃ t : Fin cfg0.N, (cfg0.win 5).flush t = true ∧ i ∈ ((cfg0.win 5).blk t).view.set := by
  have hi0 : (i 0).val < 2 := (i 0).isLt
  have hi1 : (i 1).val < 12 := (i 1).isLt
  have hi2 : (i 2).val < 2048 := (i 2).isLt
  have hi3 : (i 3).val < 2048 := (i 3).isLt
  obtain ⟨t, ht⟩ := idx_onto4 ⟨(i 0).val, hi0⟩ ⟨(i 1).val, hi1⟩ ⟨(i 2).val / 512, by omega⟩
  have q0 : win0_4.index t (0 : Fin 4) = (i 0).val := congrFun ht 0
  have q1 : win0_4.index t (1 : Fin 4) = (i 1).val := congrFun ht 1
  have q2 : win0_4.index t (2 : Fin 4) = (i 2).val / 512 := congrFun ht 2
  have q3 : win0_4.index t (3 : Fin 4) = 0 := congrFun ht 3
  obtain ⟨e50, e51, e52, e53⟩ := idx5 t
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 512 ≤ (i 2).val ∧ (i 2).val < win0_5.index t (2 : Fin 4) * 512 + 512; omega
  | ⟨3, _⟩ => show win0_5.index t (3 : Fin 4) * 2048 ≤ (i 3).val ∧ (i 3).val < win0_5.index t (3 : Fin 4) * 2048 + 2048; omega

/-! ## The whole arrays, and the run -/

section Final
variable [Cert.KernelIdeal.Facts]
variable (m : (ℓ : Loc nD τ sig) → Buf (Elt Ideal) ℓ) (ρ : Dev nD → PrngReg)

/-- THE OUTPUT ARRAY after the run is the output array of the arguments. -/
theorem final4 (c : Dev nD) : (dats m 0 c).arrAt 4 cfg0.N = outOf m c :=
  (dats m 0 c).arrAt_eq_of_cover 4 (outOf m c) (fun t _ => flushed4_eq m c t) cover4

/-- THE ATTENTION ARRAY after the run is the attention array of the arguments. -/
theorem final5 (c : Dev nD) : (dats m 0 c).arrAt 5 cfg0.N = attnOf m c :=
  (dats m 0 c).arrAt_eq_of_cover 5 (attnOf m c) (fun t _ => flushed5_eq m c t) cover5

/-- The kernel's run: every weakly fair execution terminates with both result arrays at their functions of the
    arguments, the arguments unchanged. -/
theorem run : θ_run defs (onTc (τ := τ) (main (F := Ideal))) ⟨m, fun _ => 0, ρ⟩ fun r => ∀ c : Dev nD,
      r.2.mem ((c : Thread nD τ).loc main_v0_0) = outOf m c
      ∧ r.2.mem ((c : Thread nD τ).loc main_v0_1) = attnOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (run_blocks m ρ)

end Final

end Cert.Attention

end
-- ==== Proof.lean ====
/-
  Masked softmax attention on f32[2, 12, 2048, 64] queries, keys and values with an i32[2, 1, 2048, 2048] mask: a Pallas
  kernel over a (batch, query tile, head) grid against jnp's einsum / where / softmax / einsum.

  Both programs compute, for every batch b, head h and query row r,
    s_c   = (∑_d q[b,h,r,d] · k[b,h,c,d]) · scale,   replaced by the f32 nearest 1e-9 where mask[b,0,r,c] = 0,
    e_c   = exp (s_c − max_c s_c),        attention[b,h,r,c] = e_c normalised by ∑_c e_c,
    output[b,h,r,d] = ∑_c attention[b,h,r,c] · v[b,h,c,d]
  on the extended reals. They differ in three spellings: the kernel's scale is the word for 1/8 where the reference
  computes 1 / √64; the reference takes the larger of −∞ and the row maximum; and the kernel multiplies e_c by the
  reciprocal 1 / ∑ e where the reference divides e_c by ∑ e. The first two are identities. The third is one exactly when
  the sum is not zero (0 · (1/0) is 0 but 0 / 0 is −∞ here), which is where the precondition is used: finite queries and
  keys make every score a real number, the row maximum is then one of them, and its own term contributes exp 0 = 1 to
  the sum (Proof/Law.lean, Proof/Finite.lean).

  The kernel's result arrays are read off its frame run block by block (Proof/Blocks.lean over Proof/TileRow.lean); the
  reference's are its run read one operation at a time (Proof/RefRow.lean); Proof/Spec.lean states one attention row in
  both spellings. No operation was rewritten when the kernel was idealized, so that conjunct is `True`.
-/
import proofs.«424045_j71519795413418_3_alg».proof.Defs
import proofs.«424045_j71519795413418_3_alg».proof.Proof.Gen.Kernel
import proofs.«424045_j71519795413418_3_alg».proof.Proof.Gen.Kernel.Skeleton
import proofs.«424045_j71519795413418_3_alg».proof.Proof.Gen.Kernel.Launch
import proofs.«424045_j71519795413418_3_alg».proof.Proof.Gen.Kernel.Points
import proofs.«424045_j71519795413418_3_alg».proof.Proof.Gen.Kernel.Frame
import proofs.«424045_j71519795413418_3_alg».proof.Proof.Gen.KernelIdeal
import proofs.«424045_j71519795413418_3_alg».proof.Proof.Gen.KernelIdeal.Skeleton
import proofs.«424045_j71519795413418_3_alg».proof.Proof.Gen.KernelIdeal.Launch
import proofs.«424045_j71519795413418_3_alg».proof.Proof.Gen.KernelIdeal.Points
import proofs.«424045_j71519795413418_3_alg».proof.Proof.Gen.KernelIdeal.Frame
import proofs.«424045_j71519795413418_3_alg».proof.Proof.Gen.ReferenceIdeal
import proofs.«424045_j71519795413418_3_alg».proof.Proof.Gen.Pre_finite_inputs
import proofs.«424045_j71519795413418_3_alg».proof.Proof.Gen.KernelIdeal.Value
import proofs.«424045_j71519795413418_3_alg».proof.Proof.Gen.ReferenceIdeal.Run
import proofs.«424045_j71519795413418_3_alg».proof.Proof.Gen.ReferenceIdeal.Read
import proofs.«424045_j71519795413418_3_alg».proof.Proof.Spec
import proofs.«424045_j71519795413418_3_alg».proof.Proof.Law
import proofs.«424045_j71519795413418_3_alg».proof.Proof.Finite
import proofs.«424045_j71519795413418_3_alg».proof.Proof.RefRow
import proofs.«424045_j71519795413418_3_alg».proof.Proof.TileRow
import proofs.«424045_j71519795413418_3_alg».proof.Proof.Blocks
import Idealize.ShloMosaic.Adequacy
import Idealize.ShloMosaic.Init

noncomputable section

namespace Cert.Proof

open Idealize.ShloMosaic Idealize.ShloMosaic.TcCoe Idealize.SL.Sem Idealize.ShloMosaic.ValueIdx

/-- With real queries and keys the reference's attention array is the kernel's: entry by entry the same row, in the two
    spellings the row law joins. -/
theorem attn_agree (x0 x1 : Cert.KernelIdeal.S2x12x2048x64.Idx → EReal) (x3 : Cert.KernelIdeal.S2x1x2048x2048.Idx → BitVec 32)
    (hq : ∀ i, ∃ r : ℝ, x0 i = (r : EReal)) (hk : ∀ i, ∃ r : ℝ, x1 i = (r : EReal)) :
    Cert.ReferenceIdeal.Read.val_main_v18 (F := Ideal) x0 x1 x3 = Cert.Attention.attnArr x0 x1 x3 := by
  funext i
  obtain ⟨b, h, r, c, rfl⟩ : ∃ (b : Fin 2) (h : Fin 12) (r c : Fin 2048), i = ix4 b h r c := ⟨i 0, i 1, i 2, i 3, eq_ix4 i⟩
  rw [Cert.Attention.ref_attn]
  exact (Cert.Attention.attnMul_eq_attnDiv _ _ _ (fun d => hq _) (fun c' d => hk _) c).symm

/-- And so is its output array. -/
theorem out_agree (x0 x1 x2 : Cert.KernelIdeal.S2x12x2048x64.Idx → EReal) (x3 : Cert.KernelIdeal.S2x1x2048x2048.Idx → BitVec 32)
    (hq : ∀ i, ∃ r : ℝ, x0 i = (r : EReal)) (hk : ∀ i, ∃ r : ℝ, x1 i = (r : EReal)) :
    Cert.ReferenceIdeal.Read.val_main_v19 (F := Ideal) x0 x1 x2 x3 = Cert.Attention.outArr x0 x1 x2 x3 := by
  funext i
  obtain ⟨b, h, r, d, rfl⟩ : ∃ (b : Fin 2) (h : Fin 12) (r : Fin 2048) (d : Fin 64), i = ix4 b h r d := ⟨i 0, i 1, i 2, i 3, eq_ix4 i⟩
  rw [Cert.Attention.ref_out]
  exact (Cert.Attention.outMul_eq_outDiv _ _ _ _ (fun d => hq _) (fun c' d => hk _) d).symm

theorem frame_k : Cert.frame_Kernel := fun m ρ _ => Cert.Kernel.Gen.frame m ρ
theorem frame_ki : Cert.frame_KernelIdeal := fun m ρ _ => Cert.KernelIdeal.Gen.frame m ρ
/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both runs end with the output at `outArr` and the attention at `attnArr` of the (agreeing) arguments. -/
theorem algebraic : Cert.algebraic_KernelIdeal_ReferenceIdeal := by
  intro m ρ m' ρ' hpre hagree
  refine ⟨fun c => Cert.Attention.outOf m c, fun c => Cert.Attention.attnOf m c, Cert.Attention.run m ρ, ?_⟩
  refine (θ_run Cert.ReferenceIdeal.defs _ _).mono (fun _ h c => ⟨?_, ?_, (h c).2.2⟩)
    (Cert.ReferenceIdeal.Value.run (F := Ideal) m' ρ')
  · obtain ⟨hq, hk⟩ := Cert.Attention.real_of_pre _ _ _ _ (hpre c)
    rw [(h c).1, Cert.ReferenceIdeal.Read.val_main_v19_eq, (hagree c).1, (hagree c).2.1, (hagree c).2.2.1, (hagree c).2.2.2]
    exact out_agree _ _ _ _ hq hk
  · obtain ⟨hq, hk⟩ := Cert.Attention.real_of_pre _ _ _ _ (hpre c)
    rw [(h c).2.1, Cert.ReferenceIdeal.Read.val_main_v18_eq, (hagree c).1, (hagree c).2.1, (hagree c).2.2.2]
    exact attn_agree _ _ _ hq hk

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
